-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x256 : Shape := ⟨3, ![4, 1024, 256]⟩
abbrev S4x65536x2 : Shape := ⟨3, ![4, 65536, 2]⟩
abbrev S512x768 : Shape := ⟨2, ![512, 768]⟩
abbrev S768 : Shape := ⟨1, ![768]⟩
abbrev S768x256 : Shape := ⟨2, ![768, 256]⟩
abbrev S256 : Shape := ⟨1, ![256]⟩
abbrev S_ : Shape := ⟨0, ![]⟩

class Facts : Prop where
  bcast_S_S4x1024x256 : S_.BroadcastsInDim S4x1024x256 (![] : Fin 0 → Fin S4x1024x256.rank)
  reducesTo_S4x1024x256_S_d0_1_2 : S4x1024x256.ReducesTo [0, 1, 2] S_
  h_S_ : 0 < S_.numel
  bcast_S_S512x768 : S_.BroadcastsInDim S512x768 (![] : Fin 0 → Fin S512x768.rank)
  reducesTo_S512x768_S_d0_1 : S512x768.ReducesTo [0, 1] S_
  bcast_S_S768 : S_.BroadcastsInDim S768 (![] : Fin 0 → Fin S768.rank)
  reducesTo_S768_S_d0 : S768.ReducesTo [0] S_
  bcast_S_S768x256 : S_.BroadcastsInDim S768x256 (![] : Fin 0 → Fin S768x256.rank)
  reducesTo_S768x256_S_d0_1 : S768x256.ReducesTo [0, 1] S_
  bcast_S_S256 : S_.BroadcastsInDim S256 (![] : Fin 0 → Fin S256.rank)
  reducesTo_S256_S_d0 : S256.ReducesTo [0] S_
  bcast_S_S4x65536x2 : S_.BroadcastsInDim S4x65536x2 (![] : Fin 0 → Fin S4x65536x2.rank)
  reducesTo_S4x65536x2_S_d0_1_2 : S4x65536x2.ReducesTo [0, 1, 2] S_

variable [Facts]

def fn_part1 {F : FTy → Type} [FloatOps F] (main_arg1 : IVec S4x65536x2 32) (main_arg5 : FVec F S256 .f32) (main_v13 : IVec S_ 1) (main_v16 : IVec S768x256 1) : IVec S_ 1 :=
  let main_c_5 : IVec S_ 1 := constantI S_ 1 1#1
  let main_v17 : IVec S_ 1 := (fun x v => Host.reduce IntOp.andi x v reducesTo_S768x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_c_8 : IVec S_ 32 := constantI S_ 32 0#32
  let main_v24 : IVec S4x65536x2 32 := broadcastInDim S4x65536x2 ![] bcast_S_S4x65536x2 main_c_8
  let main_v25 : IVec S4x65536x2 1 := cmpi .sge main_arg1 main_v24
  let main_c_9 : IVec S_ 32 := constantI S_ 32 1024#32
  let main_v26 : IVec S4x65536x2 32 := broadcastInDim S4x65536x2 ![] bcast_S_S4x65536x2 main_c_9
  let main_v27 : IVec S4x65536x2 1 := cmpi .slt main_arg1 main_v26
  let main_v28 : IVec S4x65536x2 1 := andi main_v25 main_v27
  let main_c_10 : IVec S_ 1 := constantI S_ 1 1#1
  let main_v29 : IVec S_ 1 := (fun x v => Host.reduce IntOp.andi x v reducesTo_S4x65536x2_S_d0_1_2 h_S_) main_v28 main_c_10
  let main_v30 : IVec S_ 1 := andi main_v23 main_v29
  main_v30

def fn {F : FTy → Type} [FloatOps F] (main_arg0 : FVec F S4x1024x256 .f32) (main_arg1 : IVec S4x65536x2 32) (main_arg2 : FVec F S512x768 .f32) (main_arg3 : FVec F S768 .f32) (main_arg4 : FVec F S768x256 .f32) (main_arg5 : FVec F S256 .f32) : IVec S_ 1 :=
  let main_v0 : FVec F S4x1024x256 .f32 := Host.absf main_arg0
  let main_cst : FVec F S_ .f32 := constant S_ .f32 0x7F800000#32
  let main_v1 : FVec F S4x1024x256 .f32 := broadcastInDim S4x1024x256 ![] bcast_S_S4x1024x256 main_cst
  let main_v2 : IVec S4x1024x256 1 := cmpf .olt main_v0 main_v1
  let main_c : IVec S_ 1 := constantI S_ 1 1#1
  let main_v3 : IVec S_ 1 := (fun x v => Host.reduce IntOp.andi x v reducesTo_S4x1024x256_S_d0_1_2 h_S_) main_v2 main_c
  let main_v4 : FVec F S512x768 .f32 := Host.absf main_arg2
  let main_cst_0 : FVec F S_ .f32 := constant S_ .f32 0x7F800000#32
  let main_v5 : FVec F S512x768 .f32 := broadcastInDim S512x768 ![] bcast_S_S512x768 main_cst_0
  let main_v6 : IVec S512x768 1 := cmpf .olt main_v4 main_v5
  let main_c_1 : IVec S_ 1 := constantI S_ 1 1#1
  let main_v7 : IVec S_ 1 := (fun x v => Host.reduce IntOp.andi x v reducesTo_S512x768_S_d0_1 h_S_) main_v6 main_c_1
  let main_v8 : IVec S_ 1 := andi main_v3 main_v7
  let main_v9 : FVec F S768 .f32 := Host.absf main_arg3
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768x256 .f32 := Host.absf main_arg4
  let main_cst_4 : FVec F S_ .f32 := constant S_ .f32 0x7F800000#32
  let main_v15 : FVec F S768x256 .f32 := broadcastInDim S768x256 ![] bcast_S_S768x256 main_cst_4
  let main_v16 : IVec S768x256 1 := cmpf .olt main_v14 main_v15
  fn_part1 (F := F) main_arg1 main_arg5 main_v13 main_v16
-- ==== Kernel.lean ====
abbrev S4x1024x256 : Shape := ⟨3, ![4, 1024, 256]⟩
abbrev S4x65536x2 : Shape := ⟨3, ![4, 65536, 2]⟩
abbrev S512x768 : Shape := ⟨2, ![512, 768]⟩
abbrev S768 : Shape := ⟨1, ![768]⟩
abbrev S768x256 : Shape := ⟨2, ![768, 256]⟩
abbrev S256 : Shape := ⟨1, ![256]⟩
abbrev S_ : Shape := ⟨0, ![]⟩
abbrev S4x65536x256 : Shape := ⟨3, ![4, 65536, 256]⟩
abbrev S1x1024x256 : Shape := ⟨3, ![1, 1024, 256]⟩
abbrev S1x2048x2 : Shape := ⟨3, ![1, 2048, 2]⟩
abbrev S1x2048x256 : Shape := ⟨3, ![1, 2048, 256]⟩
abbrev S2048x256 : Shape := ⟨2, ![2048, 256]⟩
abbrev S1024x256 : Shape := ⟨2, ![1024, 256]⟩
abbrev S1x1024x2 : Shape := ⟨3, ![1, 1024, 2]⟩
abbrev S1024x2 : Shape := ⟨2, ![1024, 2]⟩
abbrev S1024x1 : Shape := ⟨2, ![1024, 1]⟩
abbrev S1x1024 : Shape := ⟨2, ![1, 1024]⟩
abbrev S1024x1024 : Shape := ⟨2, ![1024, 1024]⟩
abbrev S256x768 : Shape := ⟨2, ![256, 768]⟩
abbrev S2048x768 : Shape := ⟨2, ![2048, 768]⟩
abbrev S1x768 : Shape := ⟨2, ![1, 768]⟩
abbrev S1x256 : Shape := ⟨2, ![1, 256]⟩

abbrev nBuf : Space → Nat
  | .hbm => 18
  | .vmem => 12
  | .smem => 0
  | _ => 0

abbrev bufTy : (tb : Table) → Fin (tcTables nBuf tb) → BufTy
  | .hbm, ⟨0, _⟩ => ⟨S4x1024x256, .f32⟩
  | .hbm, ⟨1, _⟩ => ⟨S4x65536x2, .i32⟩
  | .hbm, ⟨2, _⟩ => ⟨S512x768, .f32⟩
  | .hbm, ⟨3, _⟩ => ⟨S768, .f32⟩
  | .hbm, ⟨4, _⟩ => ⟨S768x256, .f32⟩
  | .hbm, ⟨5, _⟩ => ⟨S256, .f32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S4x65536x2, .i32⟩
  | .hbm, ⟨10, _⟩ => ⟨S4x65536x2, .i32⟩
  | .hbm, ⟨11, _⟩ => ⟨S_, .i32⟩
  | .hbm, ⟨12, _⟩ => ⟨S4x65536x2, .i32⟩
  | .hbm, ⟨13, _⟩ => ⟨S4x65536x2, .i32⟩
  | .hbm, ⟨14, _⟩ => ⟨S4x1024x256, .bf16⟩
  | .hbm, ⟨15, _⟩ => ⟨S512x768, .bf16⟩
  | .hbm, ⟨16, _⟩ => ⟨S768x256, .bf16⟩
  | .hbm, ⟨17, _⟩ => ⟨S4x65536x256, .f32⟩
  | .local _ .vmem, ⟨0, _⟩ => ⟨S1x1024x256, .bf16⟩
  | .local _ .vmem, ⟨1, _⟩ => ⟨S1x1024x256, .bf16⟩
  | .local _ .vmem, ⟨2, _⟩ => ⟨S1x2048x2, .i32⟩
  | .local _ .vmem, ⟨3, _⟩ => ⟨S1x2048x2, .i32⟩
  | .local _ .vmem, ⟨4, _⟩ => ⟨S512x768, .bf16⟩
  | .local _ .vmem, ⟨5, _⟩ => ⟨S768, .f32⟩
  | .local _ .vmem, ⟨6, _⟩ => ⟨S768x256, .bf16⟩
  | .local _ .vmem, ⟨7, _⟩ => ⟨S256, .f32⟩
  | .local _ .vmem, ⟨8, _⟩ => ⟨S1x2048x256, .f32⟩
  | .local _ .vmem, ⟨9, _⟩ => ⟨S1x2048x256, .f32⟩
  | .local _ .vmem, ⟨10, _⟩ => ⟨S2048x256, .bf16⟩
  | .local _ .vmem, ⟨11, _⟩ => ⟨S2048x256, .bf16⟩
  | _, _ => ⟨S4x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 32], ![false, false]⟩

@[reducible] def k0_t1_loop : Scf.Loop 32 :=
  let c0_i32 : BitVec 32 := 0#32
  let c2_i32 : BitVec 32 := 2#32
  let v2 : BitVec 32 := Scalar.addi c0_i32 c2_i32
  let c1_i32 : BitVec 32 := 1#32
  ⟨c0_i32, v2, c1_i32⟩
def k0_mult1 (k0_t1 : Fin k0_t1_loop.trips) : BitVec 32 :=
  let c0_i32_20 : BitVec 32 := 0#32
  let c0_i32 : BitVec 32 := 0#32
  let c1_i32 : BitVec 32 := 1#32
  let arg11 : BitVec 32 := Scf.iv c0_i32 c1_i32 k0_t1
  let c1_i32_19 : BitVec 32 := 1#32
  let v29 : BitVec 32 := Scalar.muli arg11 c1_i32_19
  let v30 : BitVec 32 := Scalar.addi c0_i32_20 v29
  let c1024_i32 : BitVec 32 := 1024#32
  let v31 : BitVec 32 := Scalar.muli v30 c1024_i32
  v31
def k0_off1 (k0_t1 : Fin k0_t1_loop.trips) : Fin 3 → Nat :=
  let c0_21 : Index := 0#32
  let c0_i32_20 : BitVec 32 := 0#32
  let c0_i32 : BitVec 32 := 0#32
  let c1_i32 : BitVec 32 := 1#32
  let arg11 : BitVec 32 := Scf.iv c0_i32 c1_i32 k0_t1
  let c1_i32_19 : BitVec 32 := 1#32
  let v29 : BitVec 32 := Scalar.muli arg11 c1_i32_19
  let v30 : BitVec 32 := Scalar.addi c0_i32_20 v29
  let c1024_i32 : BitVec 32 := 1024#32
  let v31 : BitVec 32 := Scalar.muli v30 c1024_i32
  let v32 : BitVec 32 := v31
  let v33 : Index := Scalar.indexCast v32
  let c0_22 : Index := 0#32
  ![0, v33.toNat, 0]
def k0_off2 (k0_t1 : Fin k0_t1_loop.trips) : Fin 2 → Nat :=
  let c0_i32_20 : BitVec 32 := 0#32
  let c0_i32 : BitVec 32 := 0#32
  let c1_i32 : BitVec 32 := 1#32
  let arg11 : BitVec 32 := Scf.iv c0_i32 c1_i32 k0_t1
  let c1_i32_19 : BitVec 32 := 1#32
  let v29 : BitVec 32 := Scalar.muli arg11 c1_i32_19
  let v30 : BitVec 32 := Scalar.addi c0_i32_20 v29
  let c1024_i32 : BitVec 32 := 1024#32
  let v31 : BitVec 32 := Scalar.muli v30 c1024_i32
  let v32 : BitVec 32 := v31
  let v54 : Index := Scalar.indexCast v32
  let c0_25 : Index := 0#32
  ![v54.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x2 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S768x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bcast_S_S4x65536x2 : S_.BroadcastsInDim S4x65536x2 (![] : Fin 0 → Fin S4x65536x2.rank)
  bitsLt_bf16_f32 : FTy.bits .bf16 < FTy.bits .f32
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  h_S1x1024x2 : 0 < S1x1024x2.numel
  shapeCasts_S1x1024x2_S1024x2 : S1x1024x2.ShapeCasts S1024x2
  slices_S1024x2_o0_0_S1024x1 : S1024x2.Slices ![0, 0] S1024x1
  slices_S1024x2_o0_1_S1024x1 : S1024x2.Slices ![0, 1] S1024x1
  iota_S1x1024_d1_w32 : S1x1024.Iotas .tc 32 [1]
  broadcasts_S1024x1_S1024x1024 : S1024x1.Broadcasts S1024x1024
  broadcasts_S1x1024_S1024x1024 : S1x1024.Broadcasts S1024x1024
  natLt_1_32 : 1 < 32
  h_S1024x256 : 0 < S1024x256.numel
  shapeCasts_S1024x256_S1024x256 : S1024x256.ShapeCasts S1024x256
  inb_S512x768_S512x768_0_0 : ∀ a, (![0, 0] : Fin 2 → Nat) a + S512x768.size a ≤ S512x768.size a
  h_S512x768 : 0 < S512x768.numel
  shapeCasts_S512x768_S512x768 : S512x768.ShapeCasts S512x768
  slices_S512x768_o0_0_S256x768 : S512x768.Slices ![0, 0] S256x768
  slices_S512x768_o256_0_S256x768 : S512x768.Slices ![256, 0] S256x768
  inb_S2048x256_S2048x256_0_0 : ∀ a, (![0, 0] : Fin 2 → Nat) a + S2048x256.size a ≤ S2048x256.size a
  h_S2048x256 : 0 < S2048x256.numel
  inb_S768_S768_0 : ∀ a, (![0] : Fin 1 → Nat) a + S768.size a ≤ S768.size a
  h_S768 : 0 < S768.numel
  shapeCasts_S768_S1x768 : S768.ShapeCasts S1x768
  broadcasts_S1x768_S2048x768 : S1x768.Broadcasts S2048x768
  inb_S768x256_S768x256_0_0 : ∀ a, (![0, 0] : Fin 2 → Nat) a + S768x256.size a ≤ S768x256.size a
  h_S768x256 : 0 < S768x256.numel
  shapeCasts_S768x256_S768x256 : S768x256.ShapeCasts S768x256
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  shapeCasts_S2048x256_S1x2048x256 : S2048x256.ShapeCasts S1x2048x256
  dot_S1024x1024_S1024x256_S1024x256_1_0_0_1_n_n_wf : DotDims.WF S1024x1024 S1024x256 S1024x256 [1] [0] [0] [1] [] []
  dot_S2048x256_S256x768_S2048x768_1_0_0_1_n_n_wf : DotDims.WF S2048x256 S256x768 S2048x768 [1] [0] [0] [1] [] []
  dot_S2048x768_S768x256_S2048x256_1_0_0_1_n_n_wf : DotDims.WF S2048x768 S768x256 S2048x256 [1] [0] [0] [1] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1x1024x2.size a ≤ S1x2048x2.size a
  k0_off2_inb : ∀ k0_t1 : Fin k0_t1_loop.trips, ∀ a, (k0_off2 k0_t1) a + S1024x256.size a ≤ S2048x256.size a
  k0_off2_packedbf16 : ∀ k0_t1 : Fin k0_t1_loop.trips, (Rect.unit (s := S2048x256) (k0_off2 k0_t1) S1024x256.size (k0_off2_inb k0_t1)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S4x1024x256.size a
  hwx0_0 : ∀ i : grid0.Coords, EltTy.bits .bf16 = 32 ∨ (Rect.block (s := S4x1024x256) S1x1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x2.size a ≤ S4x65536x2.size a
  hwx0_1 : ∀ i : grid0.Coords, EltTy.bits .i32 = 32 ∨ (Rect.block (s := S4x65536x2) S1x2048x2.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x768.size a ≤ S512x768.size a
  hwx0_2 : ∀ i : grid0.Coords, EltTy.bits .bf16 = 32 ∨ (Rect.block (s := S512x768) S512x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768.size a ≤ S768.size a
  hwx0_3 : ∀ i : grid0.Coords, EltTy.bits .f32 = 32 ∨ (Rect.block (s := S768) S768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768x256.size a ≤ S768x256.size a
  hwx0_4 : ∀ i : grid0.Coords, EltTy.bits .bf16 = 32 ∨ (Rect.block (s := S768x256) S768x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x2048x256.size a ≤ S4x65536x256.size a
  hwx0_6 : ∀ i : grid0.Coords, EltTy.bits .f32 = 32 ∨ (Rect.block (s := S4x65536x256) S1x2048x256.size (cc0_transform_6 i) (hinb0_6 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S2048x256_S256x768_S2048x768_1_0_0_1_n_n : DotDims S2048x256 S256x768 S2048x768 where
  lhsContracting := [1]
  rhsContracting := [0]
  lhsNonContracting := [0]
  rhsNonContracting := [1]
  lhsBatch := []
  rhsBatch := []
  wf := dot_S2048x256_S256x768_S2048x768_1_0_0_1_n_n_wf
def dot_S2048x768_S768x256_S2048x256_1_0_0_1_n_n : DotDims S2048x768 S768x256 S2048x256 where
  lhsContracting := [1]
  rhsContracting := [0]
  lhsNonContracting := [0]
  rhsNonContracting := [1]
  lhsBatch := []
  rhsBatch := []
  wf := dot_S2048x768_S768x256_S2048x256_1_0_0_1_n_n_wf

abbrev win0_0 : Pipeline.Window sig grid0 :=
  Pipeline.Window.ofSpec (Memref.whole main_v1) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S768x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x2048x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x1024x256 : Shape := ⟨3, ![4, 1024, 256]⟩
abbrev S4x65536x2 : Shape := ⟨3, ![4, 65536, 2]⟩
abbrev S512x768 : Shape := ⟨2, ![512, 768]⟩
abbrev S768 : Shape := ⟨1, ![768]⟩
abbrev S768x256 : Shape := ⟨2, ![768, 256]⟩
abbrev S256 : Shape := ⟨1, ![256]⟩
abbrev S4x65536x1 : Shape := ⟨3, ![4, 65536, 1]⟩
abbrev S_ : Shape := ⟨0, ![]⟩
abbrev S1 : Shape := ⟨1, ![1]⟩
abbrev S1x1x1 : Shape := ⟨3, ![1, 1, 1]⟩
abbrev S4x65536 : Shape := ⟨2, ![4, 65536]⟩
abbrev S4x65536x256 : Shape := ⟨3, ![4, 65536, 256]⟩
abbrev S4x65536x512 : Shape := ⟨3, ![4, 65536, 512]⟩
abbrev S4x65536x768 : Shape := ⟨3, ![4, 65536, 768]⟩
abbrev S1x1x768 : Shape := ⟨3, ![1, 1, 768]⟩
abbrev S1x1x256 : Shape := ⟨3, ![1, 1, 256]⟩

abbrev nBuf : Space → Nat
  | .hbm => 64
  | .vmem => 0
  | .smem => 0
  | _ => 0

abbrev bufTy : (tb : Table) → Fin (tcTables nBuf tb) → BufTy
  | .hbm, ⟨0, _⟩ => ⟨S4x1024x256, .f32⟩
  | .hbm, ⟨1, _⟩ => ⟨S4x65536x2, .i32⟩
  | .hbm, ⟨2, _⟩ => ⟨S512x768, .f32⟩
  | .hbm, ⟨3, _⟩ => ⟨S768, .f32⟩
  | .hbm, ⟨4, _⟩ => ⟨S768x256, .f32⟩
  | .hbm, ⟨5, _⟩ => ⟨S256, .f32⟩
  | .hbm, ⟨6, _⟩ => ⟨S4x65536x1, .i32⟩
  | .hbm, ⟨7, _⟩ => ⟨S_, .i32⟩
  | .hbm, ⟨8, _⟩ => ⟨S4x65536x1, .i32⟩
  | .hbm, ⟨9, _⟩ => ⟨S4x65536x1, .i1⟩
  | .hbm, ⟨10, _⟩ => ⟨S_, .i32⟩
  | .hbm, ⟨11, _⟩ => ⟨S4x65536x1, .i32⟩
  | .hbm, ⟨12, _⟩ => ⟨S4x65536x1, .i32⟩
  | .hbm, ⟨13, _⟩ => ⟨S4x65536x1, .i32⟩
  | .hbm, ⟨14, _⟩ => ⟨S1, .i32⟩
  | .hbm, ⟨15, _⟩ => ⟨S_, .i32⟩
  | .hbm, ⟨16, _⟩ => ⟨S4x65536x1, .i32⟩
  | .hbm, ⟨17, _⟩ => ⟨S4x65536x1, .i1⟩
  | .hbm, ⟨18, _⟩ => ⟨S1x1x1, .i32⟩
  | .hbm, ⟨19, _⟩ => ⟨S4x65536x1, .i32⟩
  | .hbm, ⟨20, _⟩ => ⟨S4x65536x1, .i1⟩
  | .hbm, ⟨21, _⟩ => ⟨S4x65536x1, .i1⟩
  | .hbm, ⟨22, _⟩ => ⟨S_, .i1⟩
  | .hbm, ⟨23, _⟩ => ⟨S4x65536, .i1⟩
  | .hbm, ⟨24, _⟩ => ⟨S4x65536x256, .f32⟩
  | .hbm, ⟨25, _⟩ => ⟨S4x65536x256, .i1⟩
  | .hbm, ⟨26, _⟩ => ⟨S_, .f32⟩
  | .hbm, ⟨27, _⟩ => ⟨S4x65536x256, .f32⟩
  | .hbm, ⟨28, _⟩ => ⟨S4x65536x256, .f32⟩
  | .hbm, ⟨29, _⟩ => ⟨S4x65536x1, .i32⟩
  | .hbm, ⟨30, _⟩ => ⟨S_, .i32⟩
  | .hbm, ⟨31, _⟩ => ⟨S4x65536x1, .i32⟩
  | .hbm, ⟨32, _⟩ => ⟨S4x65536x1, .i1⟩
  | .hbm, ⟨33, _⟩ => ⟨S_, .i32⟩
  | .hbm, ⟨34, _⟩ => ⟨S4x65536x1, .i32⟩
  | .hbm, ⟨35, _⟩ => ⟨S4x65536x1, .i32⟩
  | .hbm, ⟨36, _⟩ => ⟨S4x65536x1, .i32⟩
  | .hbm, ⟨37, _⟩ => ⟨S1, .i32⟩
  | .hbm, ⟨38, _⟩ => ⟨S_, .i32⟩
  | .hbm, ⟨39, _⟩ => ⟨S4x65536x1, .i32⟩
  | .hbm, ⟨40, _⟩ => ⟨S4x65536x1, .i1⟩
  | .hbm, ⟨41, _⟩ => ⟨S1x1x1, .i32⟩
  | .hbm, ⟨42, _⟩ => ⟨S4x65536x1, .i32⟩
  | .hbm, ⟨43, _⟩ => ⟨S4x65536x1, .i1⟩
  | .hbm, ⟨44, _⟩ => ⟨S4x65536x1, .i1⟩
  | .hbm, ⟨45, _⟩ => ⟨S_, .i1⟩
  | .hbm, ⟨46, _⟩ => ⟨S4x65536, .i1⟩
  | .hbm, ⟨47, _⟩ => ⟨S4x65536x256, .f32⟩
  | .hbm, ⟨48, _⟩ => ⟨S4x65536x256, .i1⟩
  | .hbm, ⟨49, _⟩ => ⟨S_, .f32⟩
  | .hbm, ⟨50, _⟩ => ⟨S4x65536x256, .f32⟩
  | .hbm, ⟨51, _⟩ => ⟨S4x65536x256, .f32⟩
  | .hbm, ⟨52, _⟩ => ⟨S4x65536x512, .f32⟩
  | .hbm, ⟨53, _⟩ => ⟨S4x65536x768, .f32⟩
  | .hbm, ⟨54, _⟩ => ⟨S1x1x768, .f32⟩
  | .hbm, ⟨55, _⟩ => ⟨S4x65536x768, .f32⟩
  | .hbm, ⟨56, _⟩ => ⟨S4x65536x768, .f32⟩
  | .hbm, ⟨57, _⟩ => ⟨S_, .f32⟩
  | .hbm, ⟨58, _⟩ => ⟨S4x65536x768, .f32⟩
  | .hbm, ⟨59, _⟩ => ⟨S4x65536x768, .f32⟩
  | .hbm, ⟨60, _⟩ => ⟨S4x65536x256, .f32⟩
  | .hbm, ⟨61, _⟩ => ⟨S1x1x256, .f32⟩
  | .hbm, ⟨62, _⟩ => ⟨S4x65536x256, .f32⟩
  | .hbm, ⟨63, _⟩ => ⟨S4x65536x256, .f32⟩
  | _, _ => ⟨S4x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_c_2 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_c_3 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_cst : Ref sig .tc := ⟨.hbm, 26, rfl⟩
abbrev main_call0_v14 : Ref sig .tc := ⟨.hbm, 27, rfl⟩
abbrev main_v1 : Ref sig .tc := ⟨.hbm, 28, rfl⟩
abbrev main_v2 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_c_1 : Ref sig .tc := ⟨.hbm, 37, rfl⟩
abbrev main_call1_c_2 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_c_3 : Ref sig .tc := ⟨.hbm, 45, rfl⟩
abbrev main_call1_v11 : Ref sig .tc := ⟨.hbm, 46, rfl⟩
abbrev main_call1_v12 : Ref sig .tc := ⟨.hbm, 47, rfl⟩
abbrev main_call1_v13 : Ref sig .tc := ⟨.hbm, 48, rfl⟩
abbrev main_call1_cst : Ref sig .tc := ⟨.hbm, 49, rfl⟩
abbrev main_call1_v14 : Ref sig .tc := ⟨.hbm, 50, rfl⟩
abbrev main_v3 : Ref sig .tc := ⟨.hbm, 51, rfl⟩
abbrev main_v4 : Ref sig .tc := ⟨.hbm, 52, rfl⟩
abbrev main_v5 : Ref sig .tc := ⟨.hbm, 53, rfl⟩
abbrev main_v6 : Ref sig .tc := ⟨.hbm, 54, rfl⟩
abbrev main_v7 : Ref sig .tc := ⟨.hbm, 55, rfl⟩
abbrev main_v8 : Ref sig .tc := ⟨.hbm, 56, rfl⟩
abbrev main_call2_cst : Ref sig .tc := ⟨.hbm, 57, rfl⟩
abbrev main_call2_v0 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩

abbrev nD : Nat := 1
abbrev τ : Topo := Topo.v7x

variable {F : FTy → Type} [FloatOps F]

class Facts₀ : Prop where
  slices_S4x65536x2_S4x65536x1_0_0_0 : S4x65536x2.Slices ![0, 0, 0] S4x65536x1
  bcast_S_S4x65536x1 : S_.BroadcastsInDim S4x65536x1 (![] : Fin 0 → Fin S4x65536x1.rank)
  bcast_S1_S1x1x1_2 : S1.BroadcastsInDim S1x1x1 (![2] : Fin 1 → Fin S1x1x1.rank)
  bcast_S1x1x1_S4x65536x1_0_1_2 : S1x1x1.BroadcastsInDim S4x65536x1 (![0, 1, 2] : Fin 3 → Fin S4x65536x1.rank)
  reducesTo_S4x65536x1_S4x65536_d2 : S4x65536x1.ReducesTo [2] S4x65536
  h_S_ : 0 < S_.numel
  bcast_S4x65536_S4x65536x256_0_1 : S4x65536.BroadcastsInDim S4x65536x256 (![0, 1] : Fin 2 → Fin S4x65536x256.rank)
  bcast_S_S4x65536x256 : S_.BroadcastsInDim S4x65536x256 (![] : Fin 0 → Fin S4x65536x256.rank)
  slices_S4x65536x2_S4x65536x1_0_0_1 : S4x65536x2.Slices ![0, 0, 1] S4x65536x1
  concatenates_S4x65536x256_S4x65536x256_S4x65536x512_d2 : Shape.Concatenates [S4x65536x256, S4x65536x256] S4x65536x512 2
  bcast_S768_S1x1x768_2 : S768.BroadcastsInDim S1x1x768 (![2] : Fin 1 → Fin S1x1x768.rank)
  bcast_S1x1x768_S4x65536x768_0_1_2 : S1x1x768.BroadcastsInDim S4x65536x768 (![0, 1, 2] : Fin 3 → Fin S4x65536x768.rank)
  bcast_S_S4x65536x768 : S_.BroadcastsInDim S4x65536x768 (![] : Fin 0 → Fin S4x65536x768.rank)
  bcast_S256_S1x1x256_2 : S256.BroadcastsInDim S1x1x256 (![2] : Fin 1 → Fin S1x1x256.rank)
  bcast_S1x1x256_S4x65536x256_0_1_2 : S1x1x256.BroadcastsInDim S4x65536x256 (![0, 1, 2] : Fin 3 → Fin S4x65536x256.rank)
  gather_S4x1024x256_S4x65536x1_S4x65536x256_2_1_0_0_1_2_11256_wf : GatherDims.WF S4x1024x256 S4x65536x1 S4x65536x256 [2] [1] [0] [1] [0] 2 ![1, 1, 256]
  dot_S4x65536x512_S512x768_S4x65536x768_2_0_01_1_n_n_wf : DotDims.WF S4x65536x512 S512x768 S4x65536x768 [2] [0] [0, 1] [1] [] []
  dot_S4x65536x768_S768x256_S4x65536x256_2_0_01_1_n_n_wf : DotDims.WF S4x65536x768 S768x256 S4x65536x256 [2] [0] [0, 1] [1] [] []

variable [Facts₀]

def gather_S4x1024x256_S4x65536x1_S4x65536x256_2_1_0_0_1_2_11256 : GatherDims S4x1024x256 S4x65536x1 S4x65536x256 where
  offsetDims := [2]
  collapsedSliceDims := [1]
  operandBatchingDims := [0]
  startIndicesBatchingDims := [0]
  startIndexMap := [1]
  indexVectorDim := 2
  sliceSizes := ![1, 1, 256]
  wf := gather_S4x1024x256_S4x65536x1_S4x65536x256_2_1_0_0_1_2_11256_wf
def dot_S4x65536x512_S512x768_S4x65536x768_2_0_01_1_n_n : DotDims S4x65536x512 S512x768 S4x65536x768 where
  lhsContracting := [2]
  rhsContracting := [0]
  lhsNonContracting := [0, 1]
  rhsNonContracting := [1]
  lhsBatch := []
  rhsBatch := []
  wf := dot_S4x65536x512_S512x768_S4x65536x768_2_0_01_1_n_n_wf
def dot_S4x65536x768_S768x256_S4x65536x256_2_0_01_1_n_n : DotDims S4x65536x768 S768x256 S4x65536x256 where
  lhsContracting := [2]
  rhsContracting := [0]
  lhsNonContracting := [0, 1]
  rhsNonContracting := [1]
  lhsBatch := []
  rhsBatch := []
  wf := dot_S4x65536x768_S768x256_S4x65536x256_2_0_01_1_n_n_wf

class Facts : Prop extends Facts₀ where

variable [Facts]
-- ==== Proof.ScratchRowsBits.lean ====
/-
  What the two-trip gather loop leaves in the two scratch arrays, whatever they held before.

  Trip k (k = 0, 1) stores one block of 1024 rows into each scratch array, at rows 1024·k .. 1024·k + 1023: the head
  (resp. tail) rows gathered for the ids of rows 1024·k .. 1024·k + 1023 of the point's id block. The two blocks tile the
  2048 rows, so a load of a whole scratch array after the loop reads what those two stores wrote — the canonical
  contents of the pieces — and nothing of what the array held before the loop.
-/
import proofs.«403779_j9388798509772_3_alg».proof.Proof.Gen.Kernel.Loops
import Idealize.ShloMosaic.Lib.Pipeline.Value

set_option maxRecDepth 16384

noncomputable section

namespace Cert.Kernel.ScratchRows

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The loop makes two trips. -/
theorem trips_eq : k0_t1_loop.trips = 2 := by decide +kernel

/-- The first trip. -/
abbrev t0 : Fin k0_t1_loop.trips := ⟨0, by rw [trips_eq]; decide⟩
/-- The second trip. -/
abbrev t1 : Fin k0_t1_loop.trips := ⟨1, by rw [trips_eq]; decide⟩

variable {F : FTy → Type} [FloatOps F]
variable (𝒱 : Variants) (c : Dev nD) (bd : Option 𝒱.V) (i : grid0.Coords)
  (arg2 : Memref sig .tc .vmem S1x1024x256 .bf16) (harg2 : arg2.IsWhole) (arg3 : Memref sig .tc .vmem S1x2048x2 .i32) (harg3 : arg3.IsWhole)
  (arg4 : Memref sig .tc .vmem S512x768 .bf16) (harg4 : arg4.IsWhole) (arg5 : Memref sig .tc .vmem S768 .f32) (harg5 : arg5.IsWhole)
  (arg6 : Memref sig .tc .vmem S768x256 .bf16) (harg6 : arg6.IsWhole) (arg7 : Memref sig .tc .vmem S256 .f32) (harg7 : arg7.IsWhole)
  (arg8 : Memref sig .tc .vmem S1x2048x256 .f32) (harg8 : arg8.IsWhole) (arg9 : Memref sig .tc .vmem S2048x256 .bf16) (harg9 : arg9.IsWhole)
  (arg10 : Memref sig .tc .vmem S2048x256 .bf16) (harg10 : arg10.IsWhole)
  (v0 : Vec F S1x1024x256 .bf16) (X : BufTy.Contents (Elt F) arg3.view.ty)

/-- The pieces of the trips before the n-th, per scratch array (the generated recursion, at this run's parameters). -/
abbrev pbAt (n : ℕ) : List (View.Piece (Elt F) S2048x256 .bf16) × List (View.Piece (Elt F) S2048x256 .bf16) :=
  pb_k0_t1 (F := F) 𝒱 c bd i arg2 harg2 arg3 harg3 arg4 harg4 arg5 harg5 arg6 harg6 arg7 harg7 arg8 harg8 arg9 harg9 arg10 harg10 v0 X n

/-- The id rows trip k loads: rows 1024·k .. 1024·k + 1023 of the point's id block. -/
abbrev idRows (k : Fin k0_t1_loop.trips) : Vec F S1x1024x2 .i32 :=
  View.readAt (Elt F) arg3.view (Rect.unit (s := S1x2048x2) (k0_off1 k) S1x1024x2.size (k0_off1_inb k)).toLoadRect X

/-- Trip k's store into the head scratch. -/
abbrev headPiece (k : Fin k0_t1_loop.trips) : View.Piece (Elt F) S2048x256 .bf16 :=
  ⟨Rect.unit (s := S2048x256) (k0_off2 k) S1024x256.size (k0_off2_inb k), k0_pay3 v0 (idRows arg3 X k)⟩
/-- Trip k's store into the tail scratch. -/
abbrev tailPiece (k : Fin k0_t1_loop.trips) : View.Piece (Elt F) S2048x256 .bf16 :=
  ⟨Rect.unit (s := S2048x256) (k0_off2 k) S1024x256.size (k0_off2_inb k), k0_pay4 v0 (idRows arg3 X k)⟩

/-- One trip's pieces, as the trip's run found them. -/
theorem tripL_eq (k : Fin k0_t1_loop.trips) :
    tripL_k0_t1 (F := F) 𝒱 c bd i arg2 harg2 arg3 harg3 arg4 harg4 arg5 harg5 arg6 harg6 arg7 harg7 arg8 harg8 arg9 harg9 arg10 harg10 v0 X k
      = ([headPiece arg3 v0 X k], [tailPiece arg3 v0 X k]) := by
  unfold tripL_k0_t1 trip_k0_t1
  rfl

/-- After both trips: the second trip's piece, then the first's, in each scratch array. -/
theorem pb_two : pbAt 𝒱 c bd i arg2 harg2 arg3 harg3 arg4 harg4 arg5 harg5 arg6 harg6 arg7 harg7 arg8 harg8 arg9 harg9 arg10 harg10 v0 X 2
      = ([headPiece arg3 v0 X t1, headPiece arg3 v0 X t0], [tailPiece arg3 v0 X t1, tailPiece arg3 v0 X t0]) := by
  have e1 := pb_k0_t1_succ (F := F) 𝒱 c bd i arg2 harg2 arg3 harg3 arg4 harg4 arg5 harg5 arg6 harg6 arg7 harg7 arg8 harg8 arg9 harg9 arg10 harg10 v0 X t1
  have e0 := pb_k0_t1_succ (F := F) 𝒱 c bd i arg2 harg2 arg3 harg3 arg4 harg4 arg5 harg5 arg6 harg6 arg7 harg7 arg8 harg8 arg9 harg9 arg10 harg10 v0 X t0
  rw [tripL_eq] at e1 e0
  show pb_k0_t1 (F := F) 𝒱 c bd i arg2 harg2 arg3 harg3 arg4 harg4 arg5 harg5 arg6 harg6 arg7 harg7 arg8 harg8 arg9 harg9 arg10 harg10 v0 X (t1.val + 1) = _
  rw [e1]
  show (_ ++ (pb_k0_t1 (F := F) 𝒱 c bd i arg2 harg2 arg3 harg3 arg4 harg4 arg5 harg5 arg6 harg6 arg7 harg7 arg8 harg8 arg9 harg9 arg10 harg10 v0 X (t0.val + 1)).1, _ ++ (pb_k0_t1 (F := F) 𝒱 c bd i arg2 harg2 arg3 harg3 arg4 harg4 arg5 harg5 arg6 harg6 arg7 harg7 arg8 harg8 arg9 harg9 arg10 harg10 v0 X (t0.val + 1)).2) = _
  rw [e0]
  rfl

/-- A row index is in trip k's block iff it is one of rows 1024·k .. 1024·k + 1023. -/
theorem mem_block (k : Fin k0_t1_loop.trips) (y : S2048x256.Idx) :
    y ∈ (Rect.unit (s := S2048x256) (k0_off2 k) S1024x256.size (k0_off2_inb k)).set ↔ 1024 * k.val ≤ (y 0).val ∧ (y 0).val < 1024 * k.val + 1024 := by
  rw [Rect.mem_set_unit]
  simp only [k0_off2_eq]
  constructor
  · intro h; exact h 0
  · intro h a
    match a with
    | ⟨0, _⟩ => exact h
    | ⟨1, _⟩ =>
      have h1 : (y 1).val < 256 := (y 1).isLt
      show 0 ≤ (y 1).val ∧ (y 1).val < 0 + 256
      omega

/-- The two trips' blocks cover a scratch array (heads). -/
theorem cover_head (y : S2048x256.Idx) :
    ∃ p ∈ (pbAt 𝒱 c bd i arg2 harg2 arg3 harg3 arg4 harg4 arg5 harg5 arg6 harg6 arg7 harg7 arg8 harg8 arg9 harg9 arg10 harg10 v0 X 2).1, y ∈ p.1.set := by
  rw [pb_two]
  have hy : (y 0).val < 2048 := (y 0).isLt
  by_cases h : (y 0).val < 1024
  · exact ⟨headPiece arg3 v0 X t0, by simp, (mem_block t0 y).2 ⟨by show 1024 * 0 ≤ _; omega, by show _ < 1024 * 0 + 1024; omega⟩⟩
  · exact ⟨headPiece arg3 v0 X t1, by simp, (mem_block t1 y).2 ⟨by show 1024 * 1 ≤ _; omega, by show _ < 1024 * 1 + 1024; omega⟩⟩

/-- The two trips' blocks cover a scratch array (tails). -/
theorem cover_tail (y : S2048x256.Idx) :
    ∃ p ∈ (pbAt 𝒱 c bd i arg2 harg2 arg3 harg3 arg4 harg4 arg5 harg5 arg6 harg6 arg7 harg7 arg8 harg8 arg9 harg9 arg10 harg10 v0 X 2).2, y ∈ p.1.set := by
  rw [pb_two]
  have hy : (y 0).val < 2048 := (y 0).isLt
  by_cases h : (y 0).val < 1024
  · exact ⟨tailPiece arg3 v0 X t0, by simp, (mem_block t0 y).2 ⟨by show 1024 * 0 ≤ _; omega, by show _ < 1024 * 0 + 1024; omega⟩⟩
  · exact ⟨tailPiece arg3 v0 X t1, by simp, (mem_block t1 y).2 ⟨by show 1024 * 1 ≤ _; omega, by show _ < 1024 * 1 + 1024; omega⟩⟩

/-- The zero offsets of a whole-array access. -/
theorem hz2 : (![0, 0] : Fin 2 → Nat) = fun _ => 0 := funext fun a => by
  match a with
  | ⟨0, _⟩ => rfl
  | ⟨1, _⟩ => rfl

/-- A load of the whole head scratch after the loop reads the canonical contents of the loop's pieces, whatever the
    array held before the loop. -/
theorem readAt_head (f : BufTy.Contents (Elt F) arg9.view.ty) :
    View.readAt (Elt F) arg9.view (Rect.unit (s := S2048x256) ![0, 0] S2048x256.size inb_S2048x256_S2048x256_0_0).toLoadRect
        (arg9.view.writes (Elt F) f
          (pb_k0_t1 (F := F) 𝒱 c bd i arg2 harg2 arg3 harg3 arg4 harg4 arg5 harg5 arg6 harg6 arg7 harg7 arg8 harg8 arg9 harg9 arg10 harg10 v0 X
            (Scf.trips k0_t1_loop.lb k0_t1_loop.ub k0_t1_loop.st)).1)
      = View.canon (pbAt 𝒱 c bd i arg2 harg2 arg3 harg3 arg4 harg4 arg5 harg5 arg6 harg6 arg7 harg7 arg8 harg8 arg9 harg9 arg10 harg10 v0 X 2).1 := by
  have ht : Scf.trips k0_t1_loop.lb k0_t1_loop.ub k0_t1_loop.st = 2 := trips_eq
  rw [ht, View.readAt_eq_ld, View.ld_unit_zero (S := S2048x256) hz2,
    View.read_writes_eq_canon _ _ _ (cover_head 𝒱 c bd i arg2 harg2 arg3 harg3 arg4 harg4 arg5 harg5 arg6 harg6 arg7 harg7 arg8 harg8 arg9 harg9 arg10 harg10 v0 X)]

/-- The same for the tail scratch. -/
theorem readAt_tail (f : BufTy.Contents (Elt F) arg10.view.ty) :
    View.readAt (Elt F) arg10.view (Rect.unit (s := S2048x256) ![0, 0] S2048x256.size inb_S2048x256_S2048x256_0_0).toLoadRect
        (arg10.view.writes (Elt F) f
          (pb_k0_t1 (F := F) 𝒱 c bd i arg2 harg2 arg3 harg3 arg4 harg4 arg5 harg5 arg6 harg6 arg7 harg7 arg8 harg8 arg9 harg9 arg10 harg10 v0 X
            (Scf.trips k0_t1_loop.lb k0_t1_loop.ub k0_t1_loop.st)).2)
      = View.canon (pbAt 𝒱 c bd i arg2 harg2 arg3 harg3 arg4 harg4 arg5 harg5 arg6 harg6 arg7 harg7 arg8 harg8 arg9 harg9 arg10 harg10 v0 X 2).2 := by
  have ht : Scf.trips k0_t1_loop.lb k0_t1_loop.ub k0_t1_loop.st = 2 := trips_eq
  rw [ht, View.readAt_eq_ld, View.ld_unit_zero (S := S2048x256) hz2,
    View.read_writes_eq_canon _ _ _ (cover_tail 𝒱 c bd i arg2 harg2 arg3 harg3 arg4 harg4 arg5 harg5 arg6 harg6 arg7 harg7 arg8 harg8 arg9 harg9 arg10 harg10 v0 X)]

end Cert.Kernel.ScratchRows

end
-- ==== Proof.ScratchRows.lean ====
/-
  What the two-trip gather loop leaves in the two scratch arrays, whatever they held before.

  Trip k (k = 0, 1) stores one block of 1024 rows into each scratch array, at rows 1024·k .. 1024·k + 1023: the head
  (resp. tail) rows gathered for the ids of rows 1024·k .. 1024·k + 1023 of the point's id block. The two blocks tile the
  2048 rows, so a load of a whole scratch array after the loop reads what those two stores wrote — the canonical
  contents of the pieces — and nothing of what the array held before the loop.
-/
import proofs.«403779_j9388798509772_3_alg».proof.Proof.Gen.KernelIdeal.Loops
import Idealize.ShloMosaic.Lib.Pipeline.Value

set_option maxRecDepth 16384

noncomputable section

namespace Cert.KernelIdeal.ScratchRows

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The loop makes two trips. -/
theorem trips_eq : k0_t1_loop.trips = 2 := by decide +kernel

/-- The first trip. -/
abbrev t0 : Fin k0_t1_loop.trips := ⟨0, by rw [trips_eq]; decide⟩
/-- The second trip. -/
abbrev t1 : Fin k0_t1_loop.trips := ⟨1, by rw [trips_eq]; decide⟩

variable {F : FTy → Type} [FloatOps F]
variable (𝒱 : Variants) (c : Dev nD) (bd : Option 𝒱.V) (i : grid0.Coords)
  (arg2 : Memref sig .tc .vmem S1x1024x256 .bf16) (harg2 : arg2.IsWhole) (arg3 : Memref sig .tc .vmem S1x2048x2 .i32) (harg3 : arg3.IsWhole)
  (arg4 : Memref sig .tc .vmem S512x768 .bf16) (harg4 : arg4.IsWhole) (arg5 : Memref sig .tc .vmem S768 .f32) (harg5 : arg5.IsWhole)
  (arg6 : Memref sig .tc .vmem S768x256 .bf16) (harg6 : arg6.IsWhole) (arg7 : Memref sig .tc .vmem S256 .f32) (harg7 : arg7.IsWhole)
  (arg8 : Memref sig .tc .vmem S1x2048x256 .f32) (harg8 : arg8.IsWhole) (arg9 : Memref sig .tc .vmem S2048x256 .bf16) (harg9 : arg9.IsWhole)
  (arg10 : Memref sig .tc .vmem S2048x256 .bf16) (harg10 : arg10.IsWhole)
  (v0 : Vec F S1x1024x256 .bf16) (X : BufTy.Contents (Elt F) arg3.view.ty)

/-- The pieces of the trips before the n-th, per scratch array (the generated recursion, at this run's parameters). -/
abbrev pbAt (n : ℕ) : List (View.Piece (Elt F) S2048x256 .bf16) × List (View.Piece (Elt F) S2048x256 .bf16) :=
  pb_k0_t1 (F := F) 𝒱 c bd i arg2 harg2 arg3 harg3 arg4 harg4 arg5 harg5 arg6 harg6 arg7 harg7 arg8 harg8 arg9 harg9 arg10 harg10 v0 X n

/-- The id rows trip k loads: rows 1024·k .. 1024·k + 1023 of the point's id block. -/
abbrev idRows (k : Fin k0_t1_loop.trips) : Vec F S1x1024x2 .i32 :=
  View.readAt (Elt F) arg3.view (Rect.unit (s := S1x2048x2) (k0_off1 k) S1x1024x2.size (k0_off1_inb k)).toLoadRect X

/-- Trip k's store into the head scratch. -/
abbrev headPiece (k : Fin k0_t1_loop.trips) : View.Piece (Elt F) S2048x256 .bf16 :=
  ⟨Rect.unit (s := S2048x256) (k0_off2 k) S1024x256.size (k0_off2_inb k), k0_pay3 v0 (idRows arg3 X k)⟩
/-- Trip k's store into the tail scratch. -/
abbrev tailPiece (k : Fin k0_t1_loop.trips) : View.Piece (Elt F) S2048x256 .bf16 :=
  ⟨Rect.unit (s := S2048x256) (k0_off2 k) S1024x256.size (k0_off2_inb k), k0_pay4 v0 (idRows arg3 X k)⟩

/-- One trip's pieces, as the trip's run found them. -/
theorem tripL_eq (k : Fin k0_t1_loop.trips) :
    tripL_k0_t1 (F := F) 𝒱 c bd i arg2 harg2 arg3 harg3 arg4 harg4 arg5 harg5 arg6 harg6 arg7 harg7 arg8 harg8 arg9 harg9 arg10 harg10 v0 X k
      = ([headPiece arg3 v0 X k], [tailPiece arg3 v0 X k]) := by
  unfold tripL_k0_t1 trip_k0_t1
  rfl

/-- After both trips: the second trip's piece, then the first's, in each scratch array. -/
theorem pb_two : pbAt 𝒱 c bd i arg2 harg2 arg3 harg3 arg4 harg4 arg5 harg5 arg6 harg6 arg7 harg7 arg8 harg8 arg9 harg9 arg10 harg10 v0 X 2
      = ([headPiece arg3 v0 X t1, headPiece arg3 v0 X t0], [tailPiece arg3 v0 X t1, tailPiece arg3 v0 X t0]) := by
  have e1 := pb_k0_t1_succ (F := F) 𝒱 c bd i arg2 harg2 arg3 harg3 arg4 harg4 arg5 harg5 arg6 harg6 arg7 harg7 arg8 harg8 arg9 harg9 arg10 harg10 v0 X t1
  have e0 := pb_k0_t1_succ (F := F) 𝒱 c bd i arg2 harg2 arg3 harg3 arg4 harg4 arg5 harg5 arg6 harg6 arg7 harg7 arg8 harg8 arg9 harg9 arg10 harg10 v0 X t0
  rw [tripL_eq] at e1 e0
  show pb_k0_t1 (F := F) 𝒱 c bd i arg2 harg2 arg3 harg3 arg4 harg4 arg5 harg5 arg6 harg6 arg7 harg7 arg8 harg8 arg9 harg9 arg10 harg10 v0 X (t1.val + 1) = _
  rw [e1]
  show (_ ++ (pb_k0_t1 (F := F) 𝒱 c bd i arg2 harg2 arg3 harg3 arg4 harg4 arg5 harg5 arg6 harg6 arg7 harg7 arg8 harg8 arg9 harg9 arg10 harg10 v0 X (t0.val + 1)).1, _ ++ (pb_k0_t1 (F := F) 𝒱 c bd i arg2 harg2 arg3 harg3 arg4 harg4 arg5 harg5 arg6 harg6 arg7 harg7 arg8 harg8 arg9 harg9 arg10 harg10 v0 X (t0.val + 1)).2) = _
  rw [e0]
  rfl

/-- A row index is in trip k's block iff it is one of rows 1024·k .. 1024·k + 1023. -/
theorem mem_block (k : Fin k0_t1_loop.trips) (y : S2048x256.Idx) :
    y ∈ (Rect.unit (s := S2048x256) (k0_off2 k) S1024x256.size (k0_off2_inb k)).set ↔ 1024 * k.val ≤ (y 0).val ∧ (y 0).val < 1024 * k.val + 1024 := by
  rw [Rect.mem_set_unit]
  simp only [k0_off2_eq]
  constructor
  · intro h; exact h 0
  · intro h a
    match a with
    | ⟨0, _⟩ => exact h
    | ⟨1, _⟩ =>
      have h1 : (y 1).val < 256 := (y 1).isLt
      show 0 ≤ (y 1).val ∧ (y 1).val < 0 + 256
      omega

/-- The two trips' blocks cover a scratch array (heads). -/
theorem cover_head (y : S2048x256.Idx) :
    ∃ p ∈ (pbAt 𝒱 c bd i arg2 harg2 arg3 harg3 arg4 harg4 arg5 harg5 arg6 harg6 arg7 harg7 arg8 harg8 arg9 harg9 arg10 harg10 v0 X 2).1, y ∈ p.1.set := by
  rw [pb_two]
  have hy : (y 0).val < 2048 := (y 0).isLt
  by_cases h : (y 0).val < 1024
  · exact ⟨headPiece arg3 v0 X t0, by simp, (mem_block t0 y).2 ⟨by show 1024 * 0 ≤ _; omega, by show _ < 1024 * 0 + 1024; omega⟩⟩
  · exact ⟨headPiece arg3 v0 X t1, by simp, (mem_block t1 y).2 ⟨by show 1024 * 1 ≤ _; omega, by show _ < 1024 * 1 + 1024; omega⟩⟩

/-- The two trips' blocks cover a scratch array (tails). -/
theorem cover_tail (y : S2048x256.Idx) :
    ∃ p ∈ (pbAt 𝒱 c bd i arg2 harg2 arg3 harg3 arg4 harg4 arg5 harg5 arg6 harg6 arg7 harg7 arg8 harg8 arg9 harg9 arg10 harg10 v0 X 2).2, y ∈ p.1.set := by
  rw [pb_two]
  have hy : (y 0).val < 2048 := (y 0).isLt
  by_cases h : (y 0).val < 1024
  · exact ⟨tailPiece arg3 v0 X t0, by simp, (mem_block t0 y).2 ⟨by show 1024 * 0 ≤ _; omega, by show _ < 1024 * 0 + 1024; omega⟩⟩
  · exact ⟨tailPiece arg3 v0 X t1, by simp, (mem_block t1 y).2 ⟨by show 1024 * 1 ≤ _; omega, by show _ < 1024 * 1 + 1024; omega⟩⟩

/-- The zero offsets of a whole-array access. -/
theorem hz2 : (![0, 0] : Fin 2 → Nat) = fun _ => 0 := funext fun a => by
  match a with
  | ⟨0, _⟩ => rfl
  | ⟨1, _⟩ => rfl

/-- A load of the whole head scratch after the loop reads the canonical contents of the loop's pieces, whatever the
    array held before the loop. -/
theorem readAt_head (f : BufTy.Contents (Elt F) arg9.view.ty) :
    View.readAt (Elt F) arg9.view (Rect.unit (s := S2048x256) ![0, 0] S2048x256.size inb_S2048x256_S2048x256_0_0).toLoadRect
        (arg9.view.writes (Elt F) f
          (pb_k0_t1 (F := F) 𝒱 c bd i arg2 harg2 arg3 harg3 arg4 harg4 arg5 harg5 arg6 harg6 arg7 harg7 arg8 harg8 arg9 harg9 arg10 harg10 v0 X
            (Scf.trips k0_t1_loop.lb k0_t1_loop.ub k0_t1_loop.st)).1)
      = View.canon (pbAt 𝒱 c bd i arg2 harg2 arg3 harg3 arg4 harg4 arg5 harg5 arg6 harg6 arg7 harg7 arg8 harg8 arg9 harg9 arg10 harg10 v0 X 2).1 := by
  have ht : Scf.trips k0_t1_loop.lb k0_t1_loop.ub k0_t1_loop.st = 2 := trips_eq
  rw [ht, View.readAt_eq_ld, View.ld_unit_zero (S := S2048x256) hz2,
    View.read_writes_eq_canon _ _ _ (cover_head 𝒱 c bd i arg2 harg2 arg3 harg3 arg4 harg4 arg5 harg5 arg6 harg6 arg7 harg7 arg8 harg8 arg9 harg9 arg10 harg10 v0 X)]

/-- The same for the tail scratch. -/
theorem readAt_tail (f : BufTy.Contents (Elt F) arg10.view.ty) :
    View.readAt (Elt F) arg10.view (Rect.unit (s := S2048x256) ![0, 0] S2048x256.size inb_S2048x256_S2048x256_0_0).toLoadRect
        (arg10.view.writes (Elt F) f
          (pb_k0_t1 (F := F) 𝒱 c bd i arg2 harg2 arg3 harg3 arg4 harg4 arg5 harg5 arg6 harg6 arg7 harg7 arg8 harg8 arg9 harg9 arg10 harg10 v0 X
            (Scf.trips k0_t1_loop.lb k0_t1_loop.ub k0_t1_loop.st)).2)
      = View.canon (pbAt 𝒱 c bd i arg2 harg2 arg3 harg3 arg4 harg4 arg5 harg5 arg6 harg6 arg7 harg7 arg8 harg8 arg9 harg9 arg10 harg10 v0 X 2).2 := by
  have ht : Scf.trips k0_t1_loop.lb k0_t1_loop.ub k0_t1_loop.st = 2 := trips_eq
  rw [ht, View.readAt_eq_ld, View.ld_unit_zero (S := S2048x256) hz2,
    View.read_writes_eq_canon _ _ _ (cover_tail 𝒱 c bd i arg2 harg2 arg3 harg3 arg4 harg4 arg5 harg5 arg6 harg6 arg7 harg7 arg8 harg8 arg9 harg9 arg10 harg10 v0 X)]

end Cert.KernelIdeal.ScratchRows

end
-- ==== Proof.Piece.lean ====
/-
  What the body leaves in the output block, as one function of the point's input blocks.

  The body stores the output block once, whole: the two-layer perceptron's payload over the weights and biases as loaded and
  over the two scratch arrays as the gather loop left them (the canonical contents of the loop's two stores into each).
-/
import proofs.«403779_j9388798509772_3_alg».proof.Proof.KernelIdealFrame

set_option maxRecDepth 16384

noncomputable section

namespace Cert.KernelIdeal.Piece

open Cert.KernelIdeal Cert.KernelIdeal.Gen Cert.KernelIdeal.GenP Cert.KernelIdeal.ScratchRows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

theorem hz1 : (![0] : Fin 1 → Nat) = fun _ => 0 := funext fun a => by
  match a with
  | ⟨0, _⟩ => rfl

theorem hz3 : (![0, 0, 0] : Fin 3 → Nat) = fun _ => 0 := funext fun a => by
  match a with
  | ⟨0, _⟩ => rfl
  | ⟨1, _⟩ => rfl
  | ⟨2, _⟩ => rfl

/-- The output block the body leaves: the perceptron's payload of the loaded weights and biases and of the two scratch
    arrays after the gather loop. -/
theorem out_eq (c : Dev nD) (i : grid0.Coords) (arg2 : Memref sig .tc .vmem S1x1024x256 .bf16) (harg2 : arg2.IsWhole) (arg3 : Memref sig .tc .vmem S1x2048x2 .i32) (harg3 : arg3.IsWhole) (arg4 : Memref sig .tc .vmem S512x768 .bf16) (harg4 : arg4.IsWhole) (arg5 : Memref sig .tc .vmem S768 .f32) (harg5 : arg5.IsWhole) (arg6 : Memref sig .tc .vmem S768x256 .bf16) (harg6 : arg6.IsWhole) (arg7 : Memref sig .tc .vmem S256 .f32) (harg7 : arg7.IsWhole) (arg8 : Memref sig .tc .vmem S1x2048x256 .f32) (harg8 : arg8.IsWhole) (arg9 : Memref sig .tc .vmem S2048x256 .bf16) (harg9 : arg9.IsWhole) (arg10 : Memref sig .tc .vmem S2048x256 .bf16) (harg10 : arg10.IsWhole)
    (x0 : Vec F S1x1024x256 .bf16) (x1 : Vec F S1x2048x2 .i32) (x2 : Vec F S512x768 .bf16) (x3 : Vec F S768 .f32) (x4 : Vec F S768x256 .bf16) (x5 : Vec F S256 .f32) :
    out0_A_6 (F := F) c i arg2 harg2 arg3 harg3 arg4 harg4 arg5 harg5 arg6 harg6 arg7 harg7 arg8 harg8 arg9 harg9 arg10 harg10 x0 x1 x2 x3 x4 x5
      = k0_pay5 x2
          (View.canon (pbAt (F := F) Variants.none c none i arg2 harg2 arg3 harg3 arg4 harg4 arg5 harg5 arg6 harg6 arg7 harg7 arg8 harg8 arg9 harg9 arg10 harg10 x0 (harg3.unread x1) 2).1)
          (View.canon (pbAt (F := F) Variants.none c none i arg2 harg2 arg3 harg3 arg4 harg4 arg5 harg5 arg6 harg6 arg7 harg7 arg8 harg8 arg9 harg9 arg10 harg10 x0 (harg3.unread x1) 2).2)
          x3 x4 x5 := by
  unfold out0_A_6
  rw [View.read_writes_eq_canon _ _ _ (cover0_A_6 c i arg2 harg2 arg3 harg3 arg4 harg4 arg5 harg5 arg6 harg6 arg7 harg7 arg8 harg8 arg9 harg9 arg10 harg10 x0 x1 x2 x3 x4 x5)]
  unfold kernelRun0_A
  dsimp only
  rw [View.canon_unit_zero hz3]
  simp only [View.readAt_eq_ld, harg2.read_unread, harg4.read_unread, harg5.read_unread, harg6.read_unread, harg7.read_unread,
    View.ld_unit_zero (S := S1x1024x256) hz3, View.ld_unit_zero (S := S512x768) hz2, View.ld_unit_zero (S := S768) hz1,
    View.ld_unit_zero (S := S768x256) hz2, View.ld_unit_zero (S := S256) hz1]

end Cert.KernelIdeal.Piece

end
-- ==== Proof.Spec.lean ====
/-
  The function both programs compute, stated once over the argument arrays, index by index.

  A relation (b, r) names two rows of batch b's span table by the two words of its id pair: the head row
  and the tail row. Its 512 features are the head row followed by the tail row; they pass through a
  two-layer perceptron: out = relu(features · W1 + b1) · W2 + b2.

  Two small laws on the extended reals join the two programs' arrangements to this one:
  * a sum of products against a one-hot row selects the one term where the row is 1 (the kernel gathers a
    row by multiplying the table with a one-hot matrix);
  * a sum over 512 features splits into the sum over the first 256 and the sum over the last 256 (the
    kernel multiplies the two halves of W1 separately, the reference concatenates the rows first).
  Neither law needs finiteness: 0 · x = 0 and 1 · x = x hold for every extended real, and addition of
  extended reals is commutative and associative.
-/
import Idealize.ShloMosaic.PureOps.Ideal
import Idealize.ShloMosaic.Lib.ValueIdx
import Mathlib.Algebra.BigOperators.Fin

noncomputable section

namespace Cert.RelFfn

open Idealize.ShloMosaic Idealize.ShloMosaic.ValueIdx

/-- The row of a 1024-row table an id word names. Every id is below 1024 under the precondition, and the
    row is then the word's value (`rowOf_val`). -/
def rowOf (w : BitVec 32) : Fin 1024 := ⟨w.toNat % 1024, Nat.mod_lt _ (by norm_num)⟩

theorem rowOf_val {w : BitVec 32} (h : w.toNat < 1024) : (rowOf w).val = w.toNat := Nat.mod_eq_of_lt h

/-- Feature k of the first half of the 512 features. -/
def lo (k : Fin 256) : Fin 512 := ⟨k.val, by omega⟩
/-- Feature 256 + k, of the second half. -/
def hi (k : Fin 256) : Fin 512 := ⟨256 + k.val, by omega⟩

/-- The zero both programs take the maximum against. -/
abbrev zero32 : EReal := Ideal.ofBits .f32 0x00000000#32

/-- The first layer before the relu, at relation (b, r) and hidden unit f: the head row against the upper half
    of W1, plus the tail row against the lower half, plus the bias. -/
def hidden (span : (⟨3, ![4, 1024, 256]⟩ : Shape).Idx → EReal) (ids : (⟨3, ![4, 65536, 2]⟩ : Shape).Idx → BitVec 32)
    (W1 : (⟨2, ![512, 768]⟩ : Shape).Idx → EReal) (b1 : (⟨1, ![768]⟩ : Shape).Idx → EReal)
    (b : Fin 4) (r : Fin 65536) (f : Fin 768) : EReal :=
  (∑ k : Fin 256, span (ix3 b (rowOf (ids (ix3 b r 0))) k) * W1 (ix2 (lo k) f)
    + ∑ k : Fin 256, span (ix3 b (rowOf (ids (ix3 b r 1))) k) * W1 (ix2 (hi k) f))
  + b1 (ix1 f)

/-- The result array: relu of the first layer against W2, plus the second bias. -/
def result (span : (⟨3, ![4, 1024, 256]⟩ : Shape).Idx → EReal) (ids : (⟨3, ![4, 65536, 2]⟩ : Shape).Idx → BitVec 32)
    (W1 : (⟨2, ![512, 768]⟩ : Shape).Idx → EReal) (b1 : (⟨1, ![768]⟩ : Shape).Idx → EReal)
    (W2 : (⟨2, ![768, 256]⟩ : Shape).Idx → EReal) (b2 : (⟨1, ![256]⟩ : Shape).Idx → EReal) :
    (⟨3, ![4, 65536, 256]⟩ : Shape).Idx → EReal :=
  fun j => (∑ f : Fin 768, max (hidden span ids W1 b1 (j 0) (j 1) f) zero32 * W2 (ix2 f (j 2))) + b2 (ix1 (j 2))

/-- A one-hot row against a column picks the column's entry where the row is 1. -/
theorem sum_onehot {n : Nat} (r : Fin n) (oh x : Fin n → EReal) (h : ∀ s, oh s = if r = s then 1 else 0) :
    ∑ s, oh s * x s = x r := by
  simp only [h, ite_mul, one_mul, zero_mul]
  rw [Finset.sum_ite_eq]
  simp

/-- A sum over the 512 features is the sum over the first half plus the sum over the second half. -/
theorem sum_halves (g : Fin 512 → EReal) : ∑ k, g k = ∑ k : Fin 256, g (lo k) + ∑ k : Fin 256, g (hi k) :=
  Fin.sum_univ_add (M := EReal) (a := 256) (b := 256) (fun i => g i)

end Cert.RelFfn

end
-- ==== Proof.PayApply.lean ====
/-
  The body's three stored values read at an index, at the ideal instance, over variables of the literal vector types.

  * A chunk of the head (or tail) scratch: row q of the chunk is the span-table row its id word names, because the
    one-hot row of the id against 0..1023 selects that one term of the product with the table.
  * The output block: row r is relu(head_r · W1[:256] + tail_r · W1[256:] + b1) · W2 + b2.
-/
import proofs.«403779_j9388798509772_3_alg».proof.Proof.Gen.KernelIdeal.Skeleton
import proofs.«403779_j9388798509772_3_alg».proof.Proof.Spec
import Idealize.ShloMosaic.Lib.ValueIdx
import Idealize.ShloMosaic.Lib.ValueLayout
import Idealize.ShloMosaic.Lib.Pipeline.Value
import Idealize.ShloMosaic.Lib.KernelVsHost
import Idealize.ShloMosaic.Lib.StackMember
import Idealize.ShloMosaic.PureOps.Ideal.Laws

noncomputable section

namespace Cert.KernelIdeal.PayApply

open Idealize.ShloMosaic Idealize.ShloMosaic.ValueIdx Idealize.ShloMosaic.StackMember Cert.KernelIdeal Cert.KernelIdeal.Gen Cert.RelFfn

/-- A product of an m×k by a k×n matrix into a zero accumulator, read at an index, is the sum over the contracted
    coordinate of the products of the entries. -/
theorem matmul_plain_zero_apply {m k n : Nat} {φ₁ φ₂ : FTy} (D : DotDims ⟨2, ![m, k]⟩ ⟨2, ![k, n]⟩ ⟨2, ![m, n]⟩)
    (hD : D = DotDims.plain m k n) (prec : Option ContractPrecision)
    (A : FVec Ideal ⟨2, ![m, k]⟩ φ₁) (B : FVec Ideal ⟨2, ![k, n]⟩ φ₂) (a : Fin m) (b : Fin n) :
    matmul D prec A B (constant ⟨2, ![m, n]⟩ .f32 0x00000000#32) (ix2 a b) = ∑ c : Fin k, A (ix2 a c) * B (ix2 c b) := by
  subst hD
  rw [matmul_zero_eq_dotGeneral]
  exact dotGeneral_plain_apply prec A B a b

/-- The three products of the body are plain products: rows by contraction times contraction by columns. -/
theorem dot1_eq : dot_S1024x1024_S1024x256_S1024x256_1_0_0_1_n_n = DotDims.plain 1024 1024 256 := rfl
theorem dot2_eq : dot_S2048x256_S256x768_S2048x768_1_0_0_1_n_n = DotDims.plain 2048 256 768 := rfl
theorem dot3_eq : dot_S2048x768_S768x256_S2048x256_1_0_0_1_n_n = DotDims.plain 2048 768 256 := rfl

/-- The comparison bit is 1 exactly at equal words. -/
theorem cmpi_eq_one_iff {w : Nat} (a b : BitVec w) : IntOp.cmpi .eq a b = 1#1 ↔ a = b := by
  unfold IntOp.cmpi
  cases h : (a == b)
  · have : ¬ a = b := by simpa using h
    simp [this]
  · have : a = b := by simpa using h
    simp [this]

/-- The one-hot entry: the comparison bit of an id word below 1024 against the word of s, widened and read signed,
    is 1 at the row the word names and 0 elsewhere. -/
theorem onehot_entry (w : BitVec 32) (s : Fin 1024) (hlt : w.toNat < 1024) :
    ((((IntOp.cmpi .eq w (BitVec.ofNat 32 s.val)).setWidth 32).toInt : ℝ) : EReal) = if rowOf w = s then 1 else 0 := by
  rw [toInt_setWidth_bit]
  by_cases h : rowOf w = s
  · have hw : w = BitVec.ofNat 32 s.val := by
      apply BitVec.eq_of_toNat_eq
      rw [BitVec.toNat_ofNat, ← h, rowOf_val hlt]
      exact (Nat.mod_eq_of_lt (by omega)).symm
    rw [if_pos h, (cmpi_eq_one_iff _ _).mpr hw]
    norm_num
  · have hw : ¬ w = BitVec.ofNat 32 s.val := by
      intro hw
      apply h
      apply Fin.ext
      rw [rowOf_val hlt, hw, BitVec.toNat_ofNat]
      exact Nat.mod_eq_of_lt (by have := s.isLt; omega)
    have h0 : IntOp.cmpi .eq w (BitVec.ofNat 32 s.val) = 0#1 := eq_zero_of_ne_one (fun h1 => hw ((cmpi_eq_one_iff _ _).mp h1))
    rw [if_neg h, h0]
    norm_num

/-- A column laid along every column of a matrix: an [a, 1] array broadcast to [a, b] reads, at (p, c), the operand's
    row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A comparison at an index compares the elements. -/
theorem cmpi_apply {s : Shape} {w : Nat} (p : CmpIPredicate) (x y : IVec s w) (i : s.Idx) :
    cmpi p x y i = IntOp.cmpi p (x i) (y i) := rfl

/-- Row q, column h of a head chunk: the table's row named by the chunk's id word (q, 0). -/
theorem pay3_apply (v0 : Vec Ideal S1x1024x256 .bf16) (v34 : Vec Ideal S1x1024x2 .i32) (q : Fin 1024) (h : Fin 256)
    (hlt : (v34 (ix3 0 q 0)).toNat < 1024) :
    k0_pay3 (F := Ideal) v0 v34 (ix2 q h) = v0 (ix3 0 (rowOf (v34 (ix3 0 q 0))) h) := by
  unfold k0_pay3 k0_pay1 k0_pay2
  dsimp only
  rw [shapeCast_self, truncf_apply, matmul_plain_zero_apply _ dot1_eq]
  refine (Finset.sum_congr rfl fun s _ => ?_).trans
    (sum_onehot (rowOf (v34 (ix3 0 q 0))) (fun s => if rowOf (v34 (ix3 0 q 0)) = s then 1 else 0)
      (fun s => v0 (ix3 0 s h)) (fun _ => rfl))
  rw [truncf_apply, sitofp_apply, extui_apply, cmpi_apply, broadcastTo_a1_ab_apply, broadcastTo_1b_ab_apply,
    slice2_axis1_eq, shapeCast_1ab_ab_apply, shapeCast_1ab_ab_apply, iota_single_apply]
  exact congrArg (· * v0 (ix3 0 s h)) (onehot_entry (v34 (ix3 0 q 0)) s hlt)

/-- Row q, column h of a tail chunk: the table's row named by the chunk's id word (q, 1). -/
theorem pay4_apply (v0 : Vec Ideal S1x1024x256 .bf16) (v34 : Vec Ideal S1x1024x2 .i32) (q : Fin 1024) (h : Fin 256)
    (hlt : (v34 (ix3 0 q 1)).toNat < 1024) :
    k0_pay4 (F := Ideal) v0 v34 (ix2 q h) = v0 (ix3 0 (rowOf (v34 (ix3 0 q 1))) h) := by
  unfold k0_pay4 k0_pay1 k0_pay2
  dsimp only
  rw [shapeCast_self, truncf_apply, matmul_plain_zero_apply _ dot1_eq]
  refine (Finset.sum_congr rfl fun s _ => ?_).trans
    (sum_onehot (rowOf (v34 (ix3 0 q 1))) (fun s => if rowOf (v34 (ix3 0 q 1)) = s then 1 else 0)
      (fun s => v0 (ix3 0 s h)) (fun _ => rfl))
  rw [truncf_apply, sitofp_apply, extui_apply, cmpi_apply, broadcastTo_a1_ab_apply, broadcastTo_1b_ab_apply,
    slice2_axis1_eq, shapeCast_1ab_ab_apply, shapeCast_1ab_ab_apply, iota_single_apply]
  exact congrArg (· * v0 (ix3 0 s h)) (onehot_entry (v34 (ix3 0 q 1)) s hlt)

/-- The upper half of W1 read at (k, f): W1 at (k, f). -/
theorem w1_lo_apply (v3 : Vec Ideal S512x768 .bf16) (h2 : S512x768.Slices ![0, 0] S256x768) (k : Fin 256) (f : Fin 768) :
    extractStridedSlice S256x768 ![0, 0] v3 h2 (ix2 k f) = v3 (ix2 (lo k) f) :=
  slice2_axis0_apply 0 v3 h2 k f (lo k) (Nat.zero_add _).symm

/-- The lower half of W1 read at (k, f): W1 at (256 + k, f). -/
theorem w1_hi_apply (v3 : Vec Ideal S512x768 .bf16) (h2 : S512x768.Slices ![256, 0] S256x768) (k : Fin 256) (f : Fin 768) :
    extractStridedSlice S256x768 ![256, 0] v3 h2 (ix2 k f) = v3 (ix2 (hi k) f) :=
  slice2_axis0_apply 256 v3 h2 k f (hi k) rfl

/-- Row r, column h of the output block, from the two scratch arrays v7 (heads) and v9 (tails). -/
theorem pay5_apply (v3 : Vec Ideal S512x768 .bf16) (v7 v9 : Vec Ideal S2048x256 .bf16) (v12 : Vec Ideal S768 .f32)
    (v19 : Vec Ideal S768x256 .bf16) (v22 : Vec Ideal S256 .f32) (r : Fin 2048) (h : Fin 256) :
    k0_pay5 (F := Ideal) v3 v7 v9 v12 v19 v22 (ix3 0 r h)
      = (∑ f : Fin 768,
          max ((∑ k : Fin 256, v7 (ix2 r k) * v3 (ix2 (lo k) f) + ∑ k : Fin 256, v9 (ix2 r k) * v3 (ix2 (hi k) f)) + v12 (ix1 f)) zero32
            * v19 (ix2 f h))
        + v22 (ix1 h) := by
  unfold k0_pay5
  rw [shapeCast_ab_1ab_apply, addf_apply, matmul_plain_zero_apply _ dot3_eq, broadcastTo_1b_ab_apply, shapeCast_a_1a_apply]
  refine congrArg (· + v22 (ix1 h)) (Finset.sum_congr rfl fun f _ => ?_)
  rw [truncf_apply, maximumf_apply, addf_apply, addf_apply, broadcast_apply,
    matmul_plain_zero_apply _ dot2_eq, matmul_plain_zero_apply _ dot2_eq, broadcastTo_1b_ab_apply, shapeCast_a_1a_apply]
  simp only [shapeCast_self]
  refine congrArg (fun x => max x zero32 * v19 (ix2 f h)) ?_
  refine congrArg (· + v12 (ix1 f)) ?_
  refine congrArg₂ (· + ·) (Finset.sum_congr rfl fun k _ => ?_) (Finset.sum_congr rfl fun k _ => ?_)
  · exact congrArg (v7 (ix2 r k) * ·) (w1_lo_apply v3 _ k f)
  · exact congrArg (v9 (ix2 r k) * ·) (w1_hi_apply v3 _ k f)

end Cert.KernelIdeal.PayApply
end
-- ==== Proof.BlockValue.lean ====
/-
  One grid point's output block is the specification's result at the block's place in the array.

  At grid point (b, g) the body sees batch b of the span table, rows 2048·g .. 2048·g + 2047 of the id array, and the
  weights and biases whole. If the two scratch arrays hold, row by row, the span-table rows the ids name (what the
  two-trip gather loop leaves), the stored block at (0, r, h) is `result` at (b, 2048·g + r, h).
-/
import proofs.«403779_j9388798509772_3_alg».proof.Proof.PayApply

noncomputable section

namespace Cert.KernelIdeal.BlockValue

open Idealize.ShloMosaic Idealize.ShloMosaic.ValueIdx Cert.KernelIdeal Cert.KernelIdeal.Gen Cert.RelFfn Cert.KernelIdeal.PayApply

/-- Relation r of tile g. -/
def rel (g : Fin 32) (r : Fin 2048) : Fin 65536 := ⟨2048 * g.val + r.val, by omega⟩

/-- The stored block at (0, r, h) is the specification's result at (b, 2048·g + r, h). -/
theorem block_apply
    (span : S4x1024x256.Idx → EReal) (ids : S4x65536x2.Idx → BitVec 32) (W1 : S512x768.Idx → EReal) (b1 : S768.Idx → EReal)
    (W2 : S768x256.Idx → EReal) (b2 : S256.Idx → EReal)
    (b : Fin 4) (g : Fin 32)
    (x0 : Vec Ideal S1x1024x256 .bf16) (x1 : Vec Ideal S1x2048x2 .i32) (x2 : Vec Ideal S512x768 .bf16) (x3 : Vec Ideal S768 .f32)
    (x4 : Vec Ideal S768x256 .bf16) (x5 : Vec Ideal S256 .f32) (sc0 sc1 : Vec Ideal S2048x256 .bf16)
    (h0 : ∀ (s : Fin 1024) (k : Fin 256), x0 (ix3 0 s k) = span (ix3 b s k))
    (h1 : ∀ (r : Fin 2048) (j : Fin 2), x1 (ix3 0 r j) = ids (ix3 b (rel g r) j))
    (h2 : ∀ (k : Fin 512) (f : Fin 768), x2 (ix2 k f) = W1 (ix2 k f))
    (h3 : ∀ f : Fin 768, x3 (ix1 f) = b1 (ix1 f))
    (h4 : ∀ (f : Fin 768) (h : Fin 256), x4 (ix2 f h) = W2 (ix2 f h))
    (h5 : ∀ h : Fin 256, x5 (ix1 h) = b2 (ix1 h))
    (hs0 : ∀ (r : Fin 2048) (k : Fin 256), sc0 (ix2 r k) = x0 (ix3 0 (rowOf (x1 (ix3 0 r 0))) k))
    (hs1 : ∀ (r : Fin 2048) (k : Fin 256), sc1 (ix2 r k) = x0 (ix3 0 (rowOf (x1 (ix3 0 r 1))) k))
    (r : Fin 2048) (h : Fin 256) :
    k0_pay5 (F := Ideal) x2 sc0 sc1 x3 x4 x5 (ix3 0 r h) = result span ids W1 b1 W2 b2 (ix3 b (rel g r) h) := by
  rw [pay5_apply]
  unfold result Cert.RelFfn.hidden
  show _ = (∑ f : Fin 768,
      max ((∑ k : Fin 256, span (ix3 b (rowOf (ids (ix3 b (rel g r) 0))) k) * W1 (ix2 (lo k) f)
          + ∑ k : Fin 256, span (ix3 b (rowOf (ids (ix3 b (rel g r) 1))) k) * W1 (ix2 (hi k) f)) + b1 (ix1 f)) zero32
        * W2 (ix2 f h)) + b2 (ix1 h)
  rw [h5]
  refine congrArg (· + b2 (ix1 h)) (Finset.sum_congr rfl fun f _ => ?_)
  rw [h4, h3]
  refine congrArg (fun x => max (x + b1 (ix1 f)) zero32 * W2 (ix2 f h)) ?_
  refine congrArg₂ (· + ·) (Finset.sum_congr rfl fun k _ => ?_) (Finset.sum_congr rfl fun k _ => ?_)
  · rw [hs0, h0, h1, h2]
  · rw [hs1, h0, h1, h2]

end Cert.KernelIdeal.BlockValue

end
-- ==== Proof.ScratchValue.lean ====
/-
  The scratch arrays after the gather loop, read at an index.

  Row r of the head scratch was stored by trip r / 1024 as row r % 1024 of that trip's block, so it is the head payload of
  the id rows that trip loaded, at (r % 1024, h); those id rows are rows 1024·(r / 1024) .. of the point's id block, so the
  id word is the block's word at row r. At the ideal instance, with ids below 1024, the row is the span-table row the id names.
-/
import proofs.«403779_j9388798509772_3_alg».proof.Proof.ScratchRows
import proofs.«403779_j9388798509772_3_alg».proof.Proof.PayApply

set_option maxRecDepth 16384

noncomputable section

namespace Cert.KernelIdeal.ScratchValue

open Cert.KernelIdeal Cert.KernelIdeal.Gen Cert.KernelIdeal.ScratchRows Cert.KernelIdeal.PayApply Cert.RelFfn
open Idealize.ShloMosaic Idealize.ShloMosaic.ValueIdx Idealize.ShloMosaic.TcCoe Idealize.SL.Sem

/-- The trip that stores row r: r / 1024. -/
def tripOf (r : Fin 2048) : Fin k0_t1_loop.trips := ⟨r.val / 1024, by rw [trips_eq]; omega⟩
/-- Row r's place in its trip's block: r % 1024. -/
def rowIn (r : Fin 2048) : Fin 1024 := ⟨r.val % 1024, Nat.mod_lt _ (by norm_num)⟩

/-- Row r, column h of a scratch array is the image, in the block of the trip that stores row r, of (r % 1024, h). -/
theorem emb_rowIn (k : Fin k0_t1_loop.trips) (r : Fin 2048) (h : Fin 256) (hk : r.val / 1024 = k.val) :
    (Rect.unit (s := S2048x256) (k0_off2 k) S1024x256.size (k0_off2_inb k)).emb (ix2 (rowIn r) h) = ix2 r h := by
  funext a
  apply Fin.ext
  rw [Rect.emb_apply]
  match a with
  | ⟨0, _⟩ =>
    show k0_off2 k 0 + 1 * (rowIn r).val = r.val
    rw [k0_off2_eq]
    show 1024 * k.val + 1 * (r.val % 1024) = r.val
    omega
  | ⟨1, _⟩ =>
    show k0_off2 k 1 + 1 * h.val = h.val
    rw [k0_off2_eq]
    show 0 + 1 * h.val = h.val
    omega

section Generic
variable {F : FTy → Type} [FloatOps F]
variable (𝒱 : Variants) (c : Dev nD) (bd : Option 𝒱.V) (i : grid0.Coords)
  (arg2 : Memref sig .tc .vmem S1x1024x256 .bf16) (harg2 : arg2.IsWhole) (arg3 : Memref sig .tc .vmem S1x2048x2 .i32) (harg3 : arg3.IsWhole)
  (arg4 : Memref sig .tc .vmem S512x768 .bf16) (harg4 : arg4.IsWhole) (arg5 : Memref sig .tc .vmem S768 .f32) (harg5 : arg5.IsWhole)
  (arg6 : Memref sig .tc .vmem S768x256 .bf16) (harg6 : arg6.IsWhole) (arg7 : Memref sig .tc .vmem S256 .f32) (harg7 : arg7.IsWhole)
  (arg8 : Memref sig .tc .vmem S1x2048x256 .f32) (harg8 : arg8.IsWhole) (arg9 : Memref sig .tc .vmem S2048x256 .bf16) (harg9 : arg9.IsWhole)
  (arg10 : Memref sig .tc .vmem S2048x256 .bf16) (harg10 : arg10.IsWhole)
  (v0 : Vec F S1x1024x256 .bf16) (X : BufTy.Contents (Elt F) arg3.view.ty)

/-- Row r of the head scratch after the loop: trip r / 1024's head payload at (r % 1024, h). -/
theorem canon_head_apply (r : Fin 2048) (h : Fin 256) :
    View.canon (pbAt 𝒱 c bd i arg2 harg2 arg3 harg3 arg4 harg4 arg5 harg5 arg6 harg6 arg7 harg7 arg8 harg8 arg9 harg9 arg10 harg10 v0 X 2).1 (ix2 r h)
      = k0_pay3 v0 (idRows arg3 X (tripOf r)) (ix2 (rowIn r) h) := by
  rw [pb_two]
  show View.canon [headPiece arg3 v0 X t1, headPiece arg3 v0 X t0] (ix2 r h) = _
  have hr : r.val < 2048 := r.isLt
  by_cases hlt : r.val < 1024
  · have hk : tripOf r = t0 := Fin.ext (show r.val / 1024 = 0 by omega)
    have hn : ix2 r h ∉ (headPiece arg3 v0 X t1).1.set := fun hm => by
      have h1 : 1024 * 1 ≤ r.val := ((mem_block t1 (ix2 r h)).1 hm).1
      omega
    rw [View.canon_cons_of_not_mem _ _ hn, hk, ← emb_rowIn t0 r h (show r.val / 1024 = 0 by omega)]
    exact View.canon_cons_emb _ _ _ _
  · have hk : tripOf r = t1 := Fin.ext (show r.val / 1024 = 1 by omega)
    rw [hk, ← emb_rowIn t1 r h (show r.val / 1024 = 1 by omega)]
    exact View.canon_cons_emb _ _ _ _

/-- Row r of the tail scratch after the loop: trip r / 1024's tail payload at (r % 1024, h). -/
theorem canon_tail_apply (r : Fin 2048) (h : Fin 256) :
    View.canon (pbAt 𝒱 c bd i arg2 harg2 arg3 harg3 arg4 harg4 arg5 harg5 arg6 harg6 arg7 harg7 arg8 harg8 arg9 harg9 arg10 harg10 v0 X 2).2 (ix2 r h)
      = k0_pay4 v0 (idRows arg3 X (tripOf r)) (ix2 (rowIn r) h) := by
  rw [pb_two]
  show View.canon [tailPiece arg3 v0 X t1, tailPiece arg3 v0 X t0] (ix2 r h) = _
  have hr : r.val < 2048 := r.isLt
  by_cases hlt : r.val < 1024
  · have hk : tripOf r = t0 := Fin.ext (show r.val / 1024 = 0 by omega)
    have hn : ix2 r h ∉ (tailPiece arg3 v0 X t1).1.set := fun hm => by
      have h1 : 1024 * 1 ≤ r.val := ((mem_block t1 (ix2 r h)).1 hm).1
      omega
    rw [View.canon_cons_of_not_mem _ _ hn, hk, ← emb_rowIn t0 r h (show r.val / 1024 = 0 by omega)]
    exact View.canon_cons_emb _ _ _ _
  · have hk : tripOf r = t1 := Fin.ext (show r.val / 1024 = 1 by omega)
    rw [hk, ← emb_rowIn t1 r h (show r.val / 1024 = 1 by omega)]
    exact View.canon_cons_emb _ _ _ _

/-- The id rows trip k loaded, at (0, q, j): the id block's word at row 1024·k + q. -/
theorem idRows_apply (x1 : Vec F S1x2048x2 .i32) (k : Fin k0_t1_loop.trips) (q : Fin 1024) (j : Fin 2) :
    idRows arg3 (harg3.unread x1) k (ix3 0 q j) = x1 (ix3 0 ⟨1024 * k.val + q.val, by have := k.isLt; have ht := trips_eq; omega⟩ j) := by
  show View.readAt (Elt F) arg3.view (Rect.unit (s := S1x2048x2) (k0_off1 k) S1x1024x2.size (k0_off1_inb k)).toLoadRect
      (harg3.unread x1) (ix3 0 q j) = _
  rw [View.readAt_eq_ld, harg3.read_unread]
  show x1 ((Rect.unit (s := S1x2048x2) (k0_off1 k) S1x1024x2.size (k0_off1_inb k)).toLoadRect.idx (ix3 0 q j)) = _
  refine congrArg x1 (funext fun a => Fin.ext ?_)
  rw [LoadRect.idx_apply]
  match a with
  | ⟨0, _⟩ =>
    show k0_off1 k 0 + 1 * 0 = 0
    rw [k0_off1_eq]
    rfl
  | ⟨1, _⟩ =>
    show k0_off1 k 1 + 1 * q.val = 1024 * k.val + q.val
    rw [k0_off1_eq]
    show 1024 * k.val + 1 * q.val = 1024 * k.val + q.val
    omega
  | ⟨2, _⟩ =>
    show k0_off1 k 2 + 1 * j.val = j.val
    rw [k0_off1_eq]
    show 0 + 1 * j.val = j.val
    omega

end Generic

section AtIdeal
variable (𝒱 : Variants) (c : Dev nD) (bd : Option 𝒱.V) (i : grid0.Coords)
  (arg2 : Memref sig .tc .vmem S1x1024x256 .bf16) (harg2 : arg2.IsWhole) (arg3 : Memref sig .tc .vmem S1x2048x2 .i32) (harg3 : arg3.IsWhole)
  (arg4 : Memref sig .tc .vmem S512x768 .bf16) (harg4 : arg4.IsWhole) (arg5 : Memref sig .tc .vmem S768 .f32) (harg5 : arg5.IsWhole)
  (arg6 : Memref sig .tc .vmem S768x256 .bf16) (harg6 : arg6.IsWhole) (arg7 : Memref sig .tc .vmem S256 .f32) (harg7 : arg7.IsWhole)
  (arg8 : Memref sig .tc .vmem S1x2048x256 .f32) (harg8 : arg8.IsWhole) (arg9 : Memref sig .tc .vmem S2048x256 .bf16) (harg9 : arg9.IsWhole)
  (arg10 : Memref sig .tc .vmem S2048x256 .bf16) (harg10 : arg10.IsWhole)
  (v0 : Vec Ideal S1x1024x256 .bf16) (x1 : Vec Ideal S1x2048x2 .i32)

/-- At the ideal instance, with every id of the block below 1024: row r of the head scratch is the span-table row that
    the block's id word (r, 0) names. -/
theorem head_row (hlt : ∀ (r : Fin 2048) (j : Fin 2), (x1 (ix3 0 r j)).toNat < 1024) (r : Fin 2048) (h : Fin 256) :
    View.canon (pbAt (F := Ideal) 𝒱 c bd i arg2 harg2 arg3 harg3 arg4 harg4 arg5 harg5 arg6 harg6 arg7 harg7 arg8 harg8 arg9 harg9 arg10 harg10 v0 (harg3.unread x1) 2).1 (ix2 r h)
      = v0 (ix3 0 (rowOf (x1 (ix3 0 r 0))) h) := by
  have e : ∀ j : Fin 2, idRows arg3 (harg3.unread x1) (tripOf r) (ix3 0 (rowIn r) j) = x1 (ix3 0 r j) := fun j => by
    rw [idRows_apply]
    exact congrArg (fun y => x1 (ix3 0 y j)) (Fin.ext (show 1024 * (r.val / 1024) + r.val % 1024 = r.val by omega))
  rw [canon_head_apply, pay3_apply _ _ _ _ (by rw [e]; exact hlt r 0), e]

/-- The same for the tail scratch and the id word (r, 1). -/
theorem tail_row (hlt : ∀ (r : Fin 2048) (j : Fin 2), (x1 (ix3 0 r j)).toNat < 1024) (r : Fin 2048) (h : Fin 256) :
    View.canon (pbAt (F := Ideal) 𝒱 c bd i arg2 harg2 arg3 harg3 arg4 harg4 arg5 harg5 arg6 harg6 arg7 harg7 arg8 harg8 arg9 harg9 arg10 harg10 v0 (harg3.unread x1) 2).2 (ix2 r h)
      = v0 (ix3 0 (rowOf (x1 (ix3 0 r 1))) h) := by
  have e : ∀ j : Fin 2, idRows arg3 (harg3.unread x1) (tripOf r) (ix3 0 (rowIn r) j) = x1 (ix3 0 r j) := fun j => by
    rw [idRows_apply]
    exact congrArg (fun y => x1 (ix3 0 y j)) (Fin.ext (show 1024 * (r.val / 1024) + r.val % 1024 = r.val by omega))
  rw [canon_tail_apply, pay4_apply _ _ _ _ (by rw [e]; exact hlt r 1), e]

end AtIdeal

end Cert.KernelIdeal.ScratchValue

end
-- ==== Proof.HostArrays.lean ====
/-
  What the region finds in the four arrays that host operations wrote before it.

  Three are changes of float format of an argument (the span table, W1, W2 narrowed to bf16): at the ideal
  instance a change of format is the identity, so each is its argument, element by element. The fourth is the
  id array clamped to [0, 1023] (maximum with 0, then minimum with 1023, signed): on a word already in that
  range the clamp does nothing.
-/
import proofs.«403779_j9388798509772_3_alg».proof.Proof.Gen.KernelIdeal.Frame.Runs
import Idealize.ShloMosaic.Lib.StableHlo.Run
import Idealize.ShloMosaic.PureOps.Ideal
import Idealize.ShloMosaic.Lib.StableHlo.Predicate

noncomputable section

namespace Cert.KernelIdeal.HostArrays

open Cert.KernelIdeal Cert.KernelIdeal.Gen Idealize.ShloMosaic Idealize.ShloMosaic.TcCoe Idealize.SL.Sem Idealize.ShloMosaic.StableHlo

/-- A signed clamp to [0, 1023] leaves a word below 1024 as it is. -/
theorem clip_of_lt (w : BitVec 32) (h : w.toNat < 1024) : IntOp.minsi 1023#32 (IntOp.maxsi 0#32 w) = w := by
  have hti : w.toInt = w.toNat := StableHlo.Predicate.toInt_eq_toNat_of_lt (by omega)
  have h0 : (0#32 : BitVec 32).toInt = 0 := by decide
  have h1 : (1023#32 : BitVec 32).toInt = 1023 := by decide
  have hmax : IntOp.maxsi 0#32 w = w := by
    unfold IntOp.maxsi
    rw [if_neg]
    simp only [BitVec.slt, hti, h0, decide_eq_true_eq]
    omega
  rw [hmax]
  unfold IntOp.minsi
  rw [if_neg]
  simp only [BitVec.slt, hti, h1, decide_eq_true_eq]
  omega

section Generic
variable {F : FTy → Type} [FloatOps F]
variable (m : (ℓ : Loc nD τ sig) → Buf (Elt F) ℓ)

/-- The span table as the region finds it: the argument narrowed to bf16. -/
theorem V_span (c : Dev nD) :
    (V m c main_v1 : S4x1024x256.Idx → Elt F .bf16)
      = truncf .bf16 (m ((c : Thread nD τ).loc main_arg0) : S4x1024x256.Idx → Elt F .f32) bitsLt_bf16_f32 := by
  dsimp only [V]
  simp only [hostOps0, hostOps0_1, hostOps0_2, List.flatten_cons, List.flatten_nil, List.append_nil, List.cons_append, List.nil_append]
  after_results

/-- W1 as the region finds it: the argument narrowed to bf16. -/
theorem V_w1 (c : Dev nD) :
    (V m c main_v2 : S512x768.Idx → Elt F .bf16)
      = truncf .bf16 (m ((c : Thread nD τ).loc main_arg2) : S512x768.Idx → Elt F .f32) bitsLt_bf16_f32 := by
  dsimp only [V]
  simp only [hostOps0, hostOps0_1, hostOps0_2, List.flatten_cons, List.flatten_nil, List.append_nil, List.cons_append, List.nil_append]
  after_results

/-- W2 as the region finds it: the argument narrowed to bf16. -/
theorem V_w2 (c : Dev nD) :
    (V m c main_v3 : S768x256.Idx → Elt F .bf16)
      = truncf .bf16 (m ((c : Thread nD τ).loc main_arg4) : S768x256.Idx → Elt F .f32) bitsLt_bf16_f32 := by
  dsimp only [V]
  simp only [hostOps0, hostOps0_1, hostOps0_2, List.flatten_cons, List.flatten_nil, List.append_nil, List.cons_append, List.nil_append]
  after_results

/-- The id array as the region finds it: the argument clamped to [0, 1023]. -/
theorem V_ids (c : Dev nD) :
    (V m c main_v0 : S4x65536x2.Idx → BitVec 32)
      = minsi (broadcastInDim S4x65536x2 ![] bcast_S_S4x65536x2 (constantI S_ 32 1023#32))
          (maxsi (broadcastInDim S4x65536x2 ![] bcast_S_S4x65536x2 (constantI S_ 32 0#32))
            (m ((c : Thread nD τ).loc main_arg1) : S4x65536x2.Idx → BitVec 32)) := by
  dsimp only [V]
  simp only [hostOps0, hostOps0_1, hostOps0_2, List.flatten_cons, List.flatten_nil, List.append_nil, List.cons_append, List.nil_append]
  after_results
  rfl

/-- An id the region finds is the argument's id when that is below 1024. -/
theorem V_ids_apply (c : Dev nD) (j : S4x65536x2.Idx)
    (h : ((m ((c : Thread nD τ).loc main_arg1) : S4x65536x2.Idx → BitVec 32) j).toNat < 1024) :
    (V m c main_v0 : S4x65536x2.Idx → BitVec 32) j = (m ((c : Thread nD τ).loc main_arg1) : S4x65536x2.Idx → BitVec 32) j := by
  rw [V_ids]
  exact clip_of_lt _ h

end Generic

section AtIdeal
variable (m : (ℓ : Loc nD τ sig) → Buf (Elt Ideal) ℓ)

/-- At the ideal instance the span table the region finds is the argument, element by element. -/
theorem V_span_apply (c : Dev nD) (j : S4x1024x256.Idx) :
    (V m c main_v1 : S4x1024x256.Idx → EReal) j = (m ((c : Thread nD τ).loc main_arg0) : S4x1024x256.Idx → EReal) j := by
  rw [V_span]; rfl

/-- The same for W1. -/
theorem V_w1_apply (c : Dev nD) (j : S512x768.Idx) :
    (V m c main_v2 : S512x768.Idx → EReal) j = (m ((c : Thread nD τ).loc main_arg2) : S512x768.Idx → EReal) j := by
  rw [V_w1]; rfl

/-- The same for W2. -/
theorem V_w2_apply (c : Dev nD) (j : S768x256.Idx) :
    (V m c main_v3 : S768x256.Idx → EReal) j = (m ((c : Thread nD τ).loc main_arg4) : S768x256.Idx → EReal) j := by
  rw [V_w2]; rfl

end AtIdeal

end Cert.KernelIdeal.HostArrays

end
-- ==== Proof.Blocks.lean ====
/-
  The printed index maps, decided once over the 128 grid points.

  Grid point t = (b, g) works on batch b and on relations 2048·g .. 2048·g + 2047. The output window's block index is
  (b, g, 0); the span table's block is batch b whole; the id window's block is (b, g, 0); the two weight matrices and
  the two biases are fetched whole at every point. Every (b, g) with b < 4, g < 32 is some point's block index.
-/
import proofs.«403779_j9388798509772_3_alg».proof.Proof.Gen.KernelIdeal.Frame.Runs

noncomputable section

namespace Cert.KernelIdeal.Blocks

open Cert.KernelIdeal Cert.KernelIdeal.Gen Idealize.ShloMosaic Idealize.ShloMosaic.TcCoe Idealize.SL.Sem

/-- Each input window's block index in terms of the output window's, and the output's block indices in range. -/
theorem idx_facts : ∀ t : Fin cfg0.N,
    win0_0.index t (0 : Fin 3) = win0_6.index t (0 : Fin 3) ∧ win0_0.index t (1 : Fin 3) = 0 ∧ win0_0.index t (2 : Fin 3) = 0
    ∧ win0_1.index t (0 : Fin 3) = win0_6.index t (0 : Fin 3) ∧ win0_1.index t (1 : Fin 3) = win0_6.index t (1 : Fin 3)
    ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 3) ≤ 3 ∧ win0_6.index t (1 : Fin 3) ≤ 31 ∧ win0_6.index t (2 : Fin 3) = 0 :=
  (by decide +kernel : ∀ t : Fin grid0.N, _)

/-- Every batch b and relation tile g is some grid point's output block. -/
theorem idx_onto : ∀ (b : Fin 4) (g : Fin 32), ∃ t : Fin cfg0.N, win0_6.index t = ![b.val, g.val, 0] :=
  (by decide +kernel : ∀ (b : Fin 4) (g : Fin 32), ∃ t : Fin grid0.N, win0_6.index t = ![b.val, g.val, 0])

end Cert.KernelIdeal.Blocks

end
-- ==== Proof.Cover.lean ====
/-
  The output window's blocks tile the result array: block (b, g, 0) of shape [1, 2048, 256] holds batch b, relations
  2048·g .. 2048·g + 2047, all 256 columns; every index (b, R, h) lies in the block of the grid point whose output block
  index is (b, R / 2048, 0), and every grid point writes its block back.
-/
import proofs.«403779_j9388798509772_3_alg».proof.Proof.Blocks
import Idealize.ShloMosaic.Lib.Pipeline.Value

noncomputable section

namespace Cert.KernelIdeal.Cover

open Cert.KernelIdeal Cert.KernelIdeal.Gen Cert.KernelIdeal.Blocks Idealize.ShloMosaic Idealize.ShloMosaic.TcCoe Idealize.SL.Sem

/-- An index of the result array is in point t's block iff each coordinate is in the block's range on its axis. -/
theorem mem_blk6 (t : Fin cfg0.N) (i : S4x65536x256.Idx) :
    i ∈ ((cfg0.win 6).blk t).view.set ↔ ∀ a : Fin 3, win0_6.index t a * S1x2048x256.size a ≤ (i a).val ∧ (i a).val < win0_6.index t a * S1x2048x256.size a + S1x2048x256.size a := by
  show i ∈ ((View.whole main_v4).slice (win0_6.rect t)).set ↔ _
  rw [View.set_slice_whole, Rect.mem_set_unit]
  exact Iff.rfl

/-- Every index of the result array is in some grid point's block, and that point writes its block back. -/
theorem cover6 (i : S4x65536x256.Idx) :
    ∃ t : Fin cfg0.N, (cfg0.win 6).flush t = true ∧ i ∈ ((cfg0.win 6).blk t).view.set := by
  have hi0 : (i 0).val < 4 := (i 0).isLt
  have hi1 : (i 1).val < 65536 := (i 1).isLt
  have hi2 : (i 2).val < 256 := (i 2).isLt
  obtain ⟨t, ht⟩ := idx_onto ⟨(i 0).val, by omega⟩ ⟨(i 1).val / 2048, by omega⟩
  have q0 : win0_6.index t (0 : Fin 3) = (i 0).val := congrFun ht 0
  have q1 : win0_6.index t (1 : Fin 3) = (i 1).val / 2048 := congrFun ht 1
  have q2 : win0_6.index t (2 : Fin 3) = 0 := congrFun ht 2
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 2048 ≤ (i 1).val ∧ (i 1).val < win0_6.index t (1 : Fin 3) * 2048 + 2048; omega
  | ⟨2, _⟩ => show win0_6.index t (2 : Fin 3) * 256 ≤ (i 2).val ∧ (i 2).val < win0_6.index t (2 : Fin 3) * 256 + 256; omega

end Cert.KernelIdeal.Cover

end
-- ==== Proof.ToArray.lean ====
/-
  From the blocks to the result array, at the ideal instance, for ids in range.

  What grid point t writes back is block t of ONE function of the launched arguments: the specification's `result`.
  Point t = (b, g) stages batch b of the span table, relations 2048·g .. 2048·g + 2047 of the (clamped) id array and the
  weights and biases whole; the region finds the span table and the weights as the arguments (a change of float format
  is the identity here) and the ids as the arguments' ids (the clamp does nothing in range); the scratch rows are the
  span-table rows the ids name; so the stored block is `result` at the block's place. The blocks tile the array.
-/
import proofs.«403779_j9388798509772_3_alg».proof.Proof.KernelIdealValue
import proofs.«403779_j9388798509772_3_alg».proof.Proof.Piece
import proofs.«403779_j9388798509772_3_alg».proof.Proof.BlockValue
import proofs.«403779_j9388798509772_3_alg».proof.Proof.ScratchValue
import proofs.«403779_j9388798509772_3_alg».proof.Proof.HostArrays
import proofs.«403779_j9388798509772_3_alg».proof.Proof.Cover

set_option maxRecDepth 16384

noncomputable section

namespace Cert.KernelIdeal.ToArray

open Cert.KernelIdeal Cert.KernelIdeal.Gen Cert.KernelIdeal.GenP Cert.KernelIdeal.ValueP Cert.RelFfn
open Cert.KernelIdeal.Blocks Cert.KernelIdeal.Cover Cert.KernelIdeal.HostArrays Cert.KernelIdeal.BlockValue Cert.KernelIdeal.ScratchValue Cert.KernelIdeal.Piece
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- The specification's result of the launched arguments on core c. -/
abbrev G (c : Dev nD) : S4x65536x256.Idx → EReal :=
  result (m ((c : Thread nD τ).loc main_arg0) : S4x1024x256.Idx → EReal) (m ((c : Thread nD τ).loc main_arg1) : S4x65536x2.Idx → BitVec 32)
    (m ((c : Thread nD τ).loc main_arg2) : S512x768.Idx → EReal) (m ((c : Thread nD τ).loc main_arg3) : S768.Idx → EReal)
    (m ((c : Thread nD τ).loc main_arg4) : S768x256.Idx → EReal) (m ((c : Thread nD τ).loc main_arg5) : S256.Idx → EReal)

/-- The batch point t works on: the output window's block index on axis 0. -/
def bOf (t : Fin cfg0.N) : Fin 4 := ⟨win0_6.index t (0 : Fin 3), by
  obtain ⟨e1, e2, e3, e4, e5, e6, e7, e8, e9, e10, e11, e12, e13, e14, e15⟩ := idx_facts t; omega⟩
/-- The relation tile point t works on: the output window's block index on axis 1. -/
def gOf (t : Fin cfg0.N) : Fin 32 := ⟨win0_6.index t (1 : Fin 3), by
  obtain ⟨e1, e2, e3, e4, e5, e6, e7, e8, e9, e10, e11, e12, e13, e14, e15⟩ := idx_facts t; omega⟩

/-- Point t's span-table block at (0, s, k): the argument at (b, s, k). -/
theorem blk0_apply (c : Dev nD) (t : Fin cfg0.N) (s : Fin 1024) (k : Fin 256) :
    (iblk m c 0 t : Vec Ideal S1x1024x256 .bf16) (ix3 0 s k) = (m ((c : Thread nD τ).loc main_arg0) : S4x1024x256.Idx → EReal) (ix3 (bOf t) s k) := by
  obtain ⟨e1, e2, e3, e4, e5, e6, e7, e8, e9, e10, e11, e12, e13, e14, e15⟩ := idx_facts t
  show (V m c main_v1 : S4x1024x256.Idx → EReal) (((cfg0.win 0).blk t).view.emb (ix3 0 s k)) = _
  rw [V_span_apply]
  refine congrArg _ (funext fun a => Fin.ext ?_)
  match a with
  | ⟨0, _⟩ => show win0_0.index t (0 : Fin 3) * 1 + 1 * 0 = win0_6.index t (0 : Fin 3); omega
  | ⟨1, _⟩ => show win0_0.index t (1 : Fin 3) * 1024 + 1 * s.val = s.val; omega
  | ⟨2, _⟩ => show win0_0.index t (2 : Fin 3) * 256 + 1 * k.val = k.val; omega

/-- Point t's id block at (0, r, j): the argument's id at (b, 2048·g + r, j), the ids being in range. -/
theorem blk1_apply (hids : ∀ (c : Dev nD) (j : S4x65536x2.Idx), ((m ((c : Thread nD τ).loc main_arg1) : S4x65536x2.Idx → BitVec 32) j).toNat < 1024)
    (c : Dev nD) (t : Fin cfg0.N) (r : Fin 2048) (j : Fin 2) :
    (iblk m c 1 t : Vec Ideal S1x2048x2 .i32) (ix3 0 r j) = (m ((c : Thread nD τ).loc main_arg1) : S4x65536x2.Idx → BitVec 32) (ix3 (bOf t) (rel (gOf t) r) j) := by
  obtain ⟨e1, e2, e3, e4, e5, e6, e7, e8, e9, e10, e11, e12, e13, e14, e15⟩ := idx_facts t
  show (V m c main_v0 : S4x65536x2.Idx → BitVec 32) (((cfg0.win 1).blk t).view.emb (ix3 0 r j)) = _
  rw [V_ids_apply m c _ (hids c _)]
  refine congrArg _ (funext fun a => Fin.ext ?_)
  match a with
  | ⟨0, _⟩ => show win0_1.index t (0 : Fin 3) * 1 + 1 * 0 = win0_6.index t (0 : Fin 3); omega
  | ⟨1, _⟩ => show win0_1.index t (1 : Fin 3) * 2048 + 1 * r.val = 2048 * win0_6.index t (1 : Fin 3) + r.val; omega
  | ⟨2, _⟩ => show win0_1.index t (2 : Fin 3) * 2 + 1 * j.val = j.val; omega

/-- Point t's W1 block is the argument. -/
theorem blk2_apply (c : Dev nD) (t : Fin cfg0.N) (k : Fin 512) (f : Fin 768) :
    (iblk m c 2 t : Vec Ideal S512x768 .bf16) (ix2 k f) = (m ((c : Thread nD τ).loc main_arg2) : S512x768.Idx → EReal) (ix2 k f) := by
  obtain ⟨e1, e2, e3, e4, e5, e6, e7, e8, e9, e10, e11, e12, e13, e14, e15⟩ := idx_facts t
  show (V m c main_v2 : S512x768.Idx → EReal) (((cfg0.win 2).blk t).view.emb (ix2 k f)) = _
  rw [V_w1_apply]
  refine congrArg _ (funext fun a => Fin.ext ?_)
  match a with
  | ⟨0, _⟩ => show win0_2.index t (0 : Fin 2) * 512 + 1 * k.val = k.val; omega
  | ⟨1, _⟩ => show win0_2.index t (1 : Fin 2) * 768 + 1 * f.val = f.val; omega

/-- Point t's first-bias block is the argument. -/
theorem blk3_apply (c : Dev nD) (t : Fin cfg0.N) (f : Fin 768) :
    (iblk m c 3 t : Vec Ideal S768 .f32) (ix1 f) = (m ((c : Thread nD τ).loc main_arg3) : S768.Idx → EReal) (ix1 f) := by
  obtain ⟨e1, e2, e3, e4, e5, e6, e7, e8, e9, e10, e11, e12, e13, e14, e15⟩ := idx_facts t
  show (V m c main_arg3 : S768.Idx → EReal) (((cfg0.win 3).blk t).view.emb (ix1 f)) = _
  rw [V_main_arg3]
  refine congrArg _ (funext fun a => Fin.ext ?_)
  match a with
  | ⟨0, _⟩ => show win0_3.index t (0 : Fin 1) * 768 + 1 * f.val = f.val; omega

/-- Point t's W2 block is the argument. -/
theorem blk4_apply (c : Dev nD) (t : Fin cfg0.N) (f : Fin 768) (h : Fin 256) :
    (iblk m c 4 t : Vec Ideal S768x256 .bf16) (ix2 f h) = (m ((c : Thread nD τ).loc main_arg4) : S768x256.Idx → EReal) (ix2 f h) := by
  obtain ⟨e1, e2, e3, e4, e5, e6, e7, e8, e9, e10, e11, e12, e13, e14, e15⟩ := idx_facts t
  show (V m c main_v3 : S768x256.Idx → EReal) (((cfg0.win 4).blk t).view.emb (ix2 f h)) = _
  rw [V_w2_apply]
  refine congrArg _ (funext fun a => Fin.ext ?_)
  match a with
  | ⟨0, _⟩ => show win0_4.index t (0 : Fin 2) * 768 + 1 * f.val = f.val; omega
  | ⟨1, _⟩ => show win0_4.index t (1 : Fin 2) * 256 + 1 * h.val = h.val; omega

/-- Point t's second-bias block is the argument. -/
theorem blk5_apply (c : Dev nD) (t : Fin cfg0.N) (h : Fin 256) :
    (iblk m c 5 t : Vec Ideal S256 .f32) (ix1 h) = (m ((c : Thread nD τ).loc main_arg5) : S256.Idx → EReal) (ix1 h) := by
  obtain ⟨e1, e2, e3, e4, e5, e6, e7, e8, e9, e10, e11, e12, e13, e14, e15⟩ := idx_facts t
  show (V m c main_arg5 : S256.Idx → EReal) (((cfg0.win 5).blk t).view.emb (ix1 h)) = _
  rw [V_main_arg5]
  refine congrArg _ (funext fun a => Fin.ext ?_)
  match a with
  | ⟨0, _⟩ => show win0_5.index t (0 : Fin 1) * 256 + 1 * h.val = h.val; omega

/-- The body's output block over any memrefs and input blocks: if the blocks are the arrays at the block's place and the
    ids are in range, the block at (0, r, h) is the specification's result at (b, 2048·g + r, h). -/
theorem out_apply_of_blocks (c : Dev nD) (i : grid0.Coords) (arg2 : Memref sig .tc .vmem S1x1024x256 .bf16) (harg2 : arg2.IsWhole) (arg3 : Memref sig .tc .vmem S1x2048x2 .i32) (harg3 : arg3.IsWhole) (arg4 : Memref sig .tc .vmem S512x768 .bf16) (harg4 : arg4.IsWhole) (arg5 : Memref sig .tc .vmem S768 .f32) (harg5 : arg5.IsWhole) (arg6 : Memref sig .tc .vmem S768x256 .bf16) (harg6 : arg6.IsWhole) (arg7 : Memref sig .tc .vmem S256 .f32) (harg7 : arg7.IsWhole) (arg8 : Memref sig .tc .vmem S1x2048x256 .f32) (harg8 : arg8.IsWhole) (arg9 : Memref sig .tc .vmem S2048x256 .bf16) (harg9 : arg9.IsWhole) (arg10 : Memref sig .tc .vmem S2048x256 .bf16) (harg10 : arg10.IsWhole)
    (x0 : Vec Ideal S1x1024x256 .bf16) (x1 : Vec Ideal S1x2048x2 .i32) (x2 : Vec Ideal S512x768 .bf16) (x3 : Vec Ideal S768 .f32)
    (x4 : Vec Ideal S768x256 .bf16) (x5 : Vec Ideal S256 .f32)
    (span : S4x1024x256.Idx → EReal) (ids : S4x65536x2.Idx → BitVec 32) (W1 : S512x768.Idx → EReal) (b1 : S768.Idx → EReal)
    (W2 : S768x256.Idx → EReal) (b2 : S256.Idx → EReal) (b : Fin 4) (g : Fin 32)
    (h0 : ∀ (s : Fin 1024) (k : Fin 256), x0 (ix3 0 s k) = span (ix3 b s k))
    (h1 : ∀ (r : Fin 2048) (j : Fin 2), x1 (ix3 0 r j) = ids (ix3 b (rel g r) j))
    (h2 : ∀ (k : Fin 512) (f : Fin 768), x2 (ix2 k f) = W1 (ix2 k f))
    (h3 : ∀ f : Fin 768, x3 (ix1 f) = b1 (ix1 f))
    (h4 : ∀ (f : Fin 768) (h : Fin 256), x4 (ix2 f h) = W2 (ix2 f h))
    (h5 : ∀ h : Fin 256, x5 (ix1 h) = b2 (ix1 h))
    (hin : ∀ j : S4x65536x2.Idx, (ids j).toNat < 1024) (r : Fin 2048) (h : Fin 256) :
    out0_A_6 (F := Ideal) c i arg2 harg2 arg3 harg3 arg4 harg4 arg5 harg5 arg6 harg6 arg7 harg7 arg8 harg8 arg9 harg9 arg10 harg10 x0 x1 x2 x3 x4 x5 (ix3 0 r h)
      = result span ids W1 b1 W2 b2 (ix3 b (rel g r) h) := by
  have hlt : ∀ (r : Fin 2048) (j : Fin 2), (x1 (ix3 0 r j)).toNat < 1024 := fun r j => by rw [h1]; exact hin _
  rw [out_eq]
  exact block_apply span ids W1 b1 W2 b2 b g x0 x1 x2 x3 x4 x5 _ _ h0 h1 h2 h3 h4 h5
    (head_row Variants.none c none i arg2 harg2 arg3 harg3 arg4 harg4 arg5 harg5 arg6 harg6 arg7 harg7 arg8 harg8 arg9 harg9 arg10 harg10 x0 x1 hlt)
    (tail_row Variants.none c none i arg2 harg2 arg3 harg3 arg4 harg4 arg5 harg5 arg6 harg6 arg7 harg7 arg8 harg8 arg9 harg9 arg10 harg10 x0 x1 hlt) r h

/-- The body's output block at point t is the specification's result at the block's place in the array. -/
theorem out_block_apply (hids : ∀ (c : Dev nD) (j : S4x65536x2.Idx), ((m ((c : Thread nD τ).loc main_arg1) : S4x65536x2.Idx → BitVec 32) j).toNat < 1024)
    (c : Dev nD) (t : Fin cfg0.N) (y : S1x2048x256.Idx) :
    (out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t) (iblk m c 4 t) (iblk m c 5 t) : Vec Ideal S1x2048x256 .f32) y
      = G m c (((cfg0.win 6).blk t).view.emb y) := by
  obtain ⟨u, r, h, rfl⟩ : ∃ (u : Fin 1) (r : Fin 2048) (h : Fin 256), y = ix3 u r h := ⟨y 0, y 1, y 2, eq_ix3 y⟩
  obtain rfl : u = 0 := Subsingleton.elim _ _
  obtain ⟨e1, e2, e3, e4, e5, e6, e7, e8, e9, e10, e11, e12, e13, e14, e15⟩ := idx_facts t
  have hemb : ((cfg0.win 6).blk t).view.emb (ix3 0 r h) = ix3 (bOf t) (rel (gOf t) r) h := by
    funext a; apply Fin.ext
    match a with
    | ⟨0, _⟩ => show win0_6.index t (0 : Fin 3) * 1 + 1 * 0 = win0_6.index t (0 : Fin 3); omega
    | ⟨1, _⟩ => show win0_6.index t (1 : Fin 3) * 2048 + 1 * r.val = 2048 * win0_6.index t (1 : Fin 3) + r.val; omega
    | ⟨2, _⟩ => show win0_6.index t (2 : Fin 3) * 256 + 1 * h.val = h.val; omega
  rw [hemb]
  exact out_apply_of_blocks c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t) (iblk m c 4 t) (iblk m c 5 t)
    (m ((c : Thread nD τ).loc main_arg0) : S4x1024x256.Idx → EReal) (m ((c : Thread nD τ).loc main_arg1) : S4x65536x2.Idx → BitVec 32) (m ((c : Thread nD τ).loc main_arg2) : S512x768.Idx → EReal) (m ((c : Thread nD τ).loc main_arg3) : S768.Idx → EReal) (m ((c : Thread nD τ).loc main_arg4) : S768x256.Idx → EReal) (m ((c : Thread nD τ).loc main_arg5) : S256.Idx → EReal) (bOf t) (gOf t)
    (blk0_apply m c t) (blk1_apply m hids c t) (blk2_apply m c t) (blk3_apply m c t) (blk4_apply m c t) (blk5_apply m c t)
    (hids c) r h

/-- What point t writes back is block t of the specification's result. -/
theorem flushed6_eq
    (hids : ∀ (c : Dev nD) (j : S4x65536x2.Idx), ((m ((c : Thread nD τ).loc main_arg1) : S4x65536x2.Idx → BitVec 32) j).toNat < 1024)
    (c : Dev nD) (t : Fin cfg0.N) :
    (dats m 0 c).flushed 6 t = ((cfg0.win 6).blk t).view.read (Elt Ideal) (G m c) := by
  rw [flushed6_A]
  funext j
  exact out_block_apply m hids c t j

/-- The result array after the run. -/
theorem final6
    (hids : ∀ (c : Dev nD) (j : S4x65536x2.Idx), ((m ((c : Thread nD τ).loc main_arg1) : S4x65536x2.Idx → BitVec 32) j).toNat < 1024)
    (c : Dev nD) : (dats m 0 c).arrAt 6 cfg0.N = G m c :=
  (dats m 0 c).arrAt_eq_of_cover 6 (G m c) (fun t _ => flushed6_eq m hids c t) cover6

/-- The kernel's run with the result array named: the specification's result of the arguments, the arguments unchanged. -/
theorem run
    (hids : ∀ (c : Dev nD) (j : S4x65536x2.Idx), ((m ((c : Thread nD τ).loc main_arg1) : S4x65536x2.Idx → BitVec 32) j).toNat < 1024) :
    θ_run defs (onTc (τ := τ) (main (F := Ideal))) ⟨m, fun _ => 0, ρ⟩ fun r => ∀ c : Dev nD,
      r.2.mem ((c : Thread nD τ).loc main_v4) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final6 m hids c), (h c).2⟩) (run_blocks m ρ)

end Cert.KernelIdeal.ToArray

end
-- ==== Proof.RefRun.lean ====
/-
  The reference program's run: every weakly fair execution of its @main terminates with the result buffer holding the
  last stage of the program read as a function of the arguments, and the arguments unchanged.

  @main is a straight line of host operations. What the list leaves in the result buffer is computed in two stretches,
  cut just before the concatenation of the two gathered arrays: the first stretch leaves the head and tail arrays
  (each the inlined take-along-axis of the span table), the second reads them once and goes on through the two layers.
-/
import proofs.«403779_j9388798509772_3_alg».proof.Proof.ReferenceIdealRead
import Idealize.ShloMosaic.Lib.StableHlo.Run

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The contents after two lines in a row. -/
theorem after_two : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_two l₁ l₂]

/-- The first stretch: the operations up to the one that writes the tail array. -/
abbrev opsA : List (HloOp τ sig (Elt F)) := (ops (F := F)).take 46
/-- The second stretch: from the concatenation on. -/
abbrev opsB : List (HloOp τ sig (Elt F)) := (ops (F := F)).drop 46

theorem ops_cut : (ops : List (HloOp τ sig (Elt F))) = opsA ++ opsB := (List.take_append_drop 46 _).symm

set_option maxRecDepth 8192 in
set_option maxHeartbeats 2000000 in
/-- The second stretch, from any contents: the last stage read off the head and tail arrays and the four weight arrays. -/
theorem after_B (W : Valuation τ sig (Elt F)) :
    after (opsB (F := F)) W (Proc.tc.devRef main_v13)
      = addf (Host.dotGeneral dot_S4x65536x768_S768x256_S4x65536x256_2_0_01_1_n_n none
          (maximumf (addf (Host.dotGeneral dot_S4x65536x512_S512x768_S4x65536x768_2_0_01_1_n_n none
              (concatenate S4x65536x512 2 [⟨S4x65536x256, W (Proc.tc.devRef main_v1)⟩, ⟨S4x65536x256, W (Proc.tc.devRef main_v3)⟩]
                concatenates_S4x65536x256_S4x65536x256_S4x65536x512_d2)
              (W (Proc.tc.devRef main_arg2)))
            (broadcastInDim S4x65536x768 ![0, 1, 2] bcast_S1x1x768_S4x65536x768_0_1_2
              (broadcastInDim S1x1x768 ![2] bcast_S768_S1x1x768_2 (W (Proc.tc.devRef main_arg3)))))
            (broadcastInDim S4x65536x768 ![] bcast_S_S4x65536x768 (constant S_ .f32 0x00000000#32)))
          (W (Proc.tc.devRef main_arg4)))
        (broadcastInDim S4x65536x256 ![0, 1, 2] bcast_S1x1x256_S4x65536x256_0_1_2
          (broadcastInDim S1x1x256 ![2] bcast_S256_S1x1x256_2 (W (Proc.tc.devRef main_arg5)))) := by
  simp only [opsB, ops, List.drop_succ_cons, List.drop_zero]
  after_results_simp <;> rfl

set_option maxRecDepth 8192 in
set_option maxHeartbeats 2000000 in
/-- The first stretch leaves the head array: the first take-along-axis of the span table and the id pairs. -/
theorem after_A_head (V : Valuation τ sig (Elt F)) :
    after (opsA (F := F)) V (Proc.tc.devRef main_v1)
      = val_main_v1 (F := F) (V (Proc.tc.devRef main_arg0)) (V (Proc.tc.devRef main_arg1)) := by
  simp only [opsA, ops, List.take_succ_cons, List.take_zero]
  after_results_simp
  simp only [TRef.ofBuf, TRef.toBuf, cast_eq]
  rfl

set_option maxRecDepth 8192 in
set_option maxHeartbeats 2000000 in
/-- The first stretch leaves the tail array: the second take-along-axis. -/
theorem after_A_tail (V : Valuation τ sig (Elt F)) :
    after (opsA (F := F)) V (Proc.tc.devRef main_v3)
      = val_main_v3 (F := F) (V (Proc.tc.devRef main_arg0)) (V (Proc.tc.devRef main_arg1)) := by
  simp only [opsA, ops, List.take_succ_cons, List.take_zero]
  after_results_simp
  simp only [TRef.ofBuf, TRef.toBuf, cast_eq]
  rfl

set_option maxRecDepth 8192 in
set_option maxHeartbeats 2000000 in
/-- The first stretch leaves the four weight arrays as it found them. -/
theorem after_A_weights (V : Valuation τ sig (Elt F)) :
    after (opsA (F := F)) V (Proc.tc.devRef main_arg2) = V (Proc.tc.devRef main_arg2)
    ∧ after (opsA (F := F)) V (Proc.tc.devRef main_arg3) = V (Proc.tc.devRef main_arg3)
    ∧ after (opsA (F := F)) V (Proc.tc.devRef main_arg4) = V (Proc.tc.devRef main_arg4)
    ∧ after (opsA (F := F)) V (Proc.tc.devRef main_arg5) = V (Proc.tc.devRef main_arg5) := by
  simp only [opsA, ops, List.take_succ_cons, List.take_zero]
  refine ⟨?_, ?_, ?_, ?_⟩ <;> after_results_simp <;> rfl

/-- What the operation list leaves in the result buffer: the program's last stage of the argument arrays. -/
theorem after_result (m : (ℓ : Loc nD τ sig) → Buf (Elt F) ℓ) (c : Dev nD) :
    after ops (launchContents m c) (Proc.tc.devRef main_v13)
      = val_main_v13 (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  obtain ⟨h2, h3, h4, h5⟩ := after_A_weights (F := F) (launchContents m c)
  rw [ops_cut, after_two, after_B, after_A_head, after_A_tail, h2, h3, h4, h5]
  rfl

set_option maxRecDepth 8192 in
set_option maxHeartbeats 2000000 in
/-- The run, with the result named by its last stage. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13)
        = val_main_v13 (F := F) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v13).trans (after_result m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.RefRun

end
-- ==== Proof.RefSide.lean ====
/-
  The reference's last stage, at the ideal instance, is the specification's `result` of the same arrays, when every
  id word is below 1024 (what the precondition gives).

  With an id in [0, 1024): it is not negative, so the wrap-around select keeps it; it passes the range test, so the
  gathered row is kept and the fill value is never chosen; and the gather's clamp leaves it where it is — the gathered
  element is the span table's row `rowOf id`. The concatenation puts the head row on features 0..255 and the tail row
  on features 256..511, and the 512-term product with W1 splits into the two 256-term sums (`sum_halves`).
-/
import proofs.«403779_j9388798509772_3_alg».proof.Proof.ReferenceIdealRead
import proofs.«403779_j9388798509772_3_alg».proof.Proof.Spec
import Idealize.ShloMosaic.Lib.ValueIdx
import Idealize.ShloMosaic.Lib.Pipeline.Value
import Idealize.ShloMosaic.Lib.ReduceAll
import Idealize.ShloMosaic.Lib.StableHlo.Predicate
import Idealize.ShloMosaic.PureOps.Ideal.Laws

noncomputable section

namespace Cert.ReferenceIdeal.RefSide

open Idealize.ShloMosaic Idealize.ShloMosaic.ValueIdx Cert.ReferenceIdeal Cert.ReferenceIdeal.Gen Cert.ReferenceIdeal.ReadP Cert.RelFfn

/-! ## An id word below 1024, as a signed word -/

section Words
variable {w : BitVec 32}

/-- It is not negative. -/
theorem slt_zero (h : w.toNat < 1024) : IntOp.cmpi .slt w 0#32 = 0#1 :=
  eq_zero_of_ne_one fun e => by
    have h0 : (0#32 : BitVec 32).toNat = 0 := rfl
    have := (StableHlo.Predicate.slt_iff_toNat (a := w) (b := 0#32) (by omega) (by decide)).1 e
    omega

/-- It is at least zero. -/
theorem sge_zero (h : w.toNat < 1024) : IntOp.cmpi .sge w 0#32 = 1#1 :=
  (StableHlo.Predicate.sge_iff_toNat (a := w) (b := 0#32) (by omega) (by decide)).2 (by
    have h0 : (0#32 : BitVec 32).toNat = 0 := rfl
    omega)

/-- It is at most 1023. -/
theorem sle_last (h : w.toNat < 1024) : IntOp.cmpi .sle w 1023#32 = 1#1 :=
  (StableHlo.Predicate.sle_iff_toNat (a := w) (b := 1023#32) (by omega) (by decide)).2 (by
    have h1 : (1023#32 : BitVec 32).toNat = 1023 := rfl
    omega)

/-- Read signed and clamped into [0, 1023] it is its value. -/
theorem clamp_row (h : w.toNat < 1024) : min w.toInt.toNat 1023 = w.toNat := by
  rw [StableHlo.Predicate.toInt_eq_toNat_of_lt (by omega), Int.toNat_natCast]
  omega

end Words

/-! ## The gather and the and-reduce at an index -/

local notation "gd" => gather_S4x1024x256_S4x65536x1_S4x65536x256_2_1_0_0_1_2_11256

/-- The batched row gather at an index: batch and feature coordinates pass through, the row is the start index
    read signed and clamped into [0, 1023]. -/
theorem gather_row {α : Type} (x : S4x1024x256.Idx → α) (idx : IVec S4x65536x1 32)
    (b : Fin 4) (r : Fin 65536) (k : Fin 256) :
    Host.gather gd x idx (ix3 b r k)
      = x (ix3 b ⟨min (idx (ix3 b r 0)).toInt.toNat 1023, by omega⟩ k) := by
  unfold Host.gather
  congr 1
  funext a
  refine Fin.ext ?_
  match a with
  | ⟨0, _⟩ =>
    show (gd).start (ix3 b r k) idx 0 + (gd).batchCoord (ix3 b r k) 0 + (gd).offCoord (ix3 b r k) 0 = b.val
    rw [GatherDims.start_batching _ _ _ _ (show (0 : Fin S4x1024x256.rank) ∈ (gd).operandBatchingDims by decide),
      GatherDims.offCoord_eq_zero _ _ _ (fun h => ((GatherDims.mem_sKept _ _).mp h).2 (by decide))]
    unfold GatherDims.batchCoord
    rw [dif_pos (show (0 : Fin S4x1024x256.rank) ∈ (gd).operandBatchingDims by decide), Nat.zero_add, Nat.add_zero]
    rfl
  | ⟨1, _⟩ =>
    show (gd).start (ix3 b r k) idx 1 + (gd).batchCoord (ix3 b r k) 1 + (gd).offCoord (ix3 b r k) 1
      = min (idx (ix3 b r 0)).toInt.toNat 1023
    rw [GatherDims.batchCoord_eq_zero _ _ _ (show (1 : Fin S4x1024x256.rank) ∉ (gd).operandBatchingDims by decide),
      GatherDims.offCoord_eq_zero _ _ _ (fun h => ((GatherDims.mem_sKept _ _).mp h).1 (by decide))]
    unfold GatherDims.start
    rw [dif_pos (show (1 : Fin S4x1024x256.rank) ∈ (gd).startIndexMap by decide)]
    have hsi : (gd).siIdx (ix3 b r k) ⟨List.idxOf (1 : Fin S4x1024x256.rank) (gd).startIndexMap,
        List.idxOf_lt_length_iff.2 (by decide)⟩ = ix3 b r 0 := by
      funext c; refine Fin.ext ?_
      match c with
      | ⟨0, _⟩ => rfl
      | ⟨1, _⟩ => rfl
      | ⟨2, _⟩ => rfl
    rw [hsi]
    rfl
  | ⟨2, _⟩ =>
    show (gd).start (ix3 b r k) idx 2 + (gd).batchCoord (ix3 b r k) 2 + (gd).offCoord (ix3 b r k) 2 = k.val
    rw [GatherDims.batchCoord_eq_zero _ _ _ (show (2 : Fin S4x1024x256.rank) ∉ (gd).operandBatchingDims by decide)]
    unfold GatherDims.start
    rw [dif_neg (show (2 : Fin S4x1024x256.rank) ∉ (gd).startIndexMap by decide)]
    unfold GatherDims.offCoord
    rw [dif_pos (show (2 : Fin S4x1024x256.rank) ∈ (gd).sKept by decide), Nat.zero_add]
    rfl

/-- A left fold by `and` over one-bit words that are all 1, from 1, is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, IntOp.andi_eq_one.2 ⟨rfl, rfl⟩]
    exact foldl_andi_one f hf l

/-- A reduce by `and` from 1 over an array of 1s is 1 everywhere. -/
theorem reduce_andi_one {s t u : Shape} {axes : List (Fin s.rank)} (x : s.Idx → BitVec 1) (init : u.Idx → BitVec 1)
    (h : s.ReducesTo axes t) (hu : 0 < u.numel) (hinit : ∀ q, init q = 1#1) (hx : ∀ i, x i = 1#1) (j : t.Idx) :
    Host.reduce IntOp.andi x init h hu j = 1#1 := by
  rw [Host.reduce_eq_foldl, hinit]
  exact foldl_andi_one x hx _

/-! ## The two takes: the normalised id, the range mask, the gathered row -/

section Takes
variable (x0 : (⟨S4x1024x256, .f32⟩ : BufTy).Contents (Elt Ideal)) (x1 : (⟨S4x65536x2, .i32⟩ : BufTy).Contents (Elt Ideal))

/-- The head id after the wrap-around select is the id word itself. -/
theorem head_id (hids : ∀ j : S4x65536x2.Idx, (x1 j).toNat < 1024) (i : S4x65536x1.Idx) :
    val_main_call0_v4 (F := Ideal) x1 i = x1 (idx_main_v0 i) := by
  rw [val_main_call0_v4_apply, val_main_call0_v1_apply, val_main_v0_apply, val_main_call0_v0_apply, val_main_call0_c_apply,
    slt_zero (hids _), select_zero]

/-- The tail id after the wrap-around select is the id word itself. -/
theorem tail_id (hids : ∀ j : S4x65536x2.Idx, (x1 j).toNat < 1024) (i : S4x65536x1.Idx) :
    val_main_call1_v4 (F := Ideal) x1 i = x1 (idx_main_v2 i) := by
  rw [val_main_call1_v4_apply, val_main_call1_v1_apply, val_main_v2_apply, val_main_call1_v0_apply, val_main_call1_c_apply,
    slt_zero (hids _), select_zero]

/-- The head id passes the range test 0 ≤ id ≤ 1023. -/
theorem head_mask (hids : ∀ j : S4x65536x2.Idx, (x1 j).toNat < 1024) (i : S4x65536x1.Idx) :
    val_main_call0_v10 (F := Ideal) x1 i = 1#1 := by
  rw [val_main_call0_v10_apply, val_main_call0_v6_apply, val_main_call0_v9_apply, head_id x1 hids,
    val_main_call0_v5_apply, val_main_call0_c_2_apply, val_main_call0_v8_apply, val_main_call0_v7_apply,
    val_main_call0_c_1_apply, sge_zero (hids _), sle_last (hids _)]
  exact IntOp.andi_eq_one.2 ⟨rfl, rfl⟩

/-- The tail id passes the range test 0 ≤ id ≤ 1023. -/
theorem tail_mask (hids : ∀ j : S4x65536x2.Idx, (x1 j).toNat < 1024) (i : S4x65536x1.Idx) :
    val_main_call1_v10 (F := Ideal) x1 i = 1#1 := by
  rw [val_main_call1_v10_apply, val_main_call1_v6_apply, val_main_call1_v9_apply, tail_id x1 hids,
    val_main_call1_v5_apply, val_main_call1_c_2_apply, val_main_call1_v8_apply, val_main_call1_v7_apply,
    val_main_call1_c_1_apply, sge_zero (hids _), sle_last (hids _)]
  exact IntOp.andi_eq_one.2 ⟨rfl, rfl⟩

/-- The head's in-range flag, the `and` over the unit axis of the mask, is 1. -/
theorem head_inrange (hids : ∀ j : S4x65536x2.Idx, (x1 j).toNat < 1024) (j : S4x65536.Idx) :
    val_main_call0_v11 (F := Ideal) x1 j = 1#1 := by
  unfold val_main_call0_v11
  exact reduce_andi_one _ _ _ _ (fun _ => rfl) (head_mask x1 hids) j

/-- The tail's in-range flag is 1. -/
theorem tail_inrange (hids : ∀ j : S4x65536x2.Idx, (x1 j).toNat < 1024) (j : S4x65536.Idx) :
    val_main_call1_v11 (F := Ideal) x1 j = 1#1 := by
  unfold val_main_call1_v11
  exact reduce_andi_one _ _ _ _ (fun _ => rfl) (tail_mask x1 hids) j

/-- The head array at (b, r, k) is the span table's row named by the first id word of relation (b, r). -/
theorem head_apply (hids : ∀ j : S4x65536x2.Idx, (x1 j).toNat < 1024) (b : Fin 4) (r : Fin 65536) (k : Fin 256) :
    val_main_v1 (F := Ideal) x0 x1 (ix3 b r k) = x0 (ix3 b (rowOf (x1 (ix3 b r 0))) k) := by
  rw [val_main_v1_apply, val_main_call0_v13_apply, head_inrange x1 hids, select_one]
  unfold val_main_call0_v12
  have e : idx_main_v0 (ix3 b r (0 : Fin 1)) = ix3 b r (0 : Fin 2) := funext fun a => Fin.ext (by
    match a with
    | ⟨0, _⟩ => rfl
    | ⟨1, _⟩ => rfl
    | ⟨2, _⟩ => rfl)
  refine (gather_row _ _ b r k).trans (congrArg x0 (funext fun a => Fin.ext ?_))
  match a with
  | ⟨0, _⟩ => rfl
  | ⟨1, _⟩ =>
    show min (val_main_call0_v4 (F := Ideal) x1 (ix3 b r 0)).toInt.toNat 1023 = (rowOf (x1 (ix3 b r 0))).val
    rw [head_id x1 hids, e, clamp_row (hids _), rowOf_val (hids _)]
  | ⟨2, _⟩ => rfl

/-- The tail array at (b, r, k) is the span table's row named by the second id word of relation (b, r). -/
theorem tail_apply (hids : ∀ j : S4x65536x2.Idx, (x1 j).toNat < 1024) (b : Fin 4) (r : Fin 65536) (k : Fin 256) :
    val_main_v3 (F := Ideal) x0 x1 (ix3 b r k) = x0 (ix3 b (rowOf (x1 (ix3 b r 1))) k) := by
  rw [val_main_v3_apply, val_main_call1_v13_apply, tail_inrange x1 hids, select_one]
  unfold val_main_call1_v12
  have e : idx_main_v2 (ix3 b r (0 : Fin 1)) = ix3 b r (1 : Fin 2) := funext fun a => Fin.ext (by
    match a with
    | ⟨0, _⟩ => rfl
    | ⟨1, _⟩ => rfl
    | ⟨2, _⟩ => rfl)
  refine (gather_row _ _ b r k).trans (congrArg x0 (funext fun a => Fin.ext ?_))
  match a with
  | ⟨0, _⟩ => rfl
  | ⟨1, _⟩ =>
    show min (val_main_call1_v4 (F := Ideal) x1 (ix3 b r 0)).toInt.toNat 1023 = (rowOf (x1 (ix3 b r 1))).val
    rw [tail_id x1 hids, e, clamp_row (hids _), rowOf_val (hids _)]
  | ⟨2, _⟩ => rfl

/-- Feature k of the concatenation is the head array's feature k. -/
theorem concat_lo (b : Fin 4) (r : Fin 65536) (k : Fin 256) :
    val_main_v4 (F := Ideal) x0 x1 (ix3 b r (lo k)) = val_main_v1 (F := Ideal) x0 x1 (ix3 b r k) := by
  unfold val_main_v4
  exact concatenate_pair_apply_left 2 _ _ concatenates_S4x65536x256_S4x65536x256_S4x65536x512_d2 (ix3 b r (lo k)) rfl
    (ix3 b r k) (fun c => match c with
      | ⟨0, _⟩ => rfl
      | ⟨1, _⟩ => rfl
      | ⟨2, _⟩ => rfl)

/-- Feature 256 + k of the concatenation is the tail array's feature k. -/
theorem concat_hi (b : Fin 4) (r : Fin 65536) (k : Fin 256) :
    val_main_v4 (F := Ideal) x0 x1 (ix3 b r (hi k)) = val_main_v3 (F := Ideal) x0 x1 (ix3 b r k) := by
  unfold val_main_v4
  exact concatenate_pair_apply_right 2 _ _ concatenates_S4x65536x256_S4x65536x256_S4x65536x512_d2 (ix3 b r (hi k)) rfl rfl
    (ix3 b r k) (fun c hc => match c, hc with
      | ⟨0, _⟩, _ => rfl
      | ⟨1, _⟩, _ => rfl
      | ⟨2, _⟩, hc => absurd (Fin.ext rfl) hc)
    (by show k.val + 256 = 256 + k.val; omega)

end Takes

/-! ## The two layers -/

section Layers
variable (x0 : (⟨S4x1024x256, .f32⟩ : BufTy).Contents (Elt Ideal)) (x1 : (⟨S4x65536x2, .i32⟩ : BufTy).Contents (Elt Ideal))
  (x2 : (⟨S512x768, .f32⟩ : BufTy).Contents (Elt Ideal)) (x3 : (⟨S768, .f32⟩ : BufTy).Contents (Elt Ideal))

/-- The first layer before the relu is the specification's `hidden`. -/
theorem hidden_apply (hids : ∀ j : S4x65536x2.Idx, (x1 j).toNat < 1024) (b : Fin 4) (r : Fin 65536) (f : Fin 768) :
    val_main_v8 (F := Ideal) x0 x1 x2 x3 (ix3 b r f) = hidden x0 x1 x2 x3 b r f := by
  rw [val_main_v8_apply, val_main_v5_apply, val_main_v7_apply, val_main_v6_apply]
  have el : ∀ k : Fin 512, lidx_main_v5 (ix3 b r f) k = ix3 b r k := fun k => funext fun a => Fin.ext (by
    match a with
    | ⟨0, _⟩ => rfl
    | ⟨1, _⟩ => rfl
    | ⟨2, _⟩ => rfl)
  have er : ∀ k : Fin 512, ridx_main_v5 (ix3 b r f) k = ix2 k f := fun k => funext fun a => Fin.ext (by
    match a with
    | ⟨0, _⟩ => rfl
    | ⟨1, _⟩ => rfl)
  have eb : idx_main_v6 (idx_main_v7 (ix3 b r f)) = ix1 f := funext fun a => Fin.ext (by
    match a with
    | ⟨0, _⟩ => rfl)
  simp only [el, er, eb]
  rw [sum_halves]
  simp only [concat_lo, concat_hi, head_apply x0 x1 hids, tail_apply x0 x1 hids]
  rfl

/-- The relu of the first layer. -/
theorem relu_apply (hids : ∀ j : S4x65536x2.Idx, (x1 j).toNat < 1024) (b : Fin 4) (r : Fin 65536) (f : Fin 768) :
    val_main_v9 (F := Ideal) x0 x1 x2 x3 (ix3 b r f) = max (hidden x0 x1 x2 x3 b r f) zero32 := by
  rw [val_main_v9_apply, hidden_apply x0 x1 x2 x3 hids, val_main_call2_v0_apply, val_main_call2_cst_apply]
  rfl

end Layers

/-- The reference's result stage is the specification's result array, for ids in range. -/
theorem ref_is_result
    (x0 : (⟨S4x1024x256, .f32⟩ : BufTy).Contents (Elt Ideal)) (x1 : (⟨S4x65536x2, .i32⟩ : BufTy).Contents (Elt Ideal))
    (x2 : (⟨S512x768, .f32⟩ : BufTy).Contents (Elt Ideal)) (x3 : (⟨S768, .f32⟩ : BufTy).Contents (Elt Ideal))
    (x4 : (⟨S768x256, .f32⟩ : BufTy).Contents (Elt Ideal)) (x5 : (⟨S256, .f32⟩ : BufTy).Contents (Elt Ideal))
    (hids : ∀ j : S4x65536x2.Idx, (x1 j).toNat < 1024) :
    val_main_v13 (F := Ideal) x0 x1 x2 x3 x4 x5 = result x0 x1 x2 x3 x4 x5 := by
  funext i
  obtain ⟨b, r, c, rfl⟩ : ∃ (b : Fin 4) (r : Fin 65536) (c : Fin 256), i = ix3 b r c := ⟨i 0, i 1, i 2, eq_ix3 i⟩
  rw [val_main_v13_apply, val_main_v10_apply, val_main_v12_apply, val_main_v11_apply]
  have el : ∀ f : Fin 768, lidx_main_v10 (ix3 b r c) f = ix3 b r f := fun f => funext fun a => Fin.ext (by
    match a with
    | ⟨0, _⟩ => rfl
    | ⟨1, _⟩ => rfl
    | ⟨2, _⟩ => rfl)
  have er : ∀ f : Fin 768, ridx_main_v10 (ix3 b r c) f = ix2 f c := fun f => funext fun a => Fin.ext (by
    match a with
    | ⟨0, _⟩ => rfl
    | ⟨1, _⟩ => rfl)
  have eb : idx_main_v11 (idx_main_v12 (ix3 b r c)) = ix1 c := funext fun a => Fin.ext (by
    match a with
    | ⟨0, _⟩ => rfl)
  simp only [el, er, eb, relu_apply x0 x1 x2 x3 hids]
  rfl

end Cert.ReferenceIdeal.RefSide

end
-- ==== Proof.Pre.lean ====
/-
  What the precondition says of the relation ids: every id word, read as a signed 32-bit integer, lies in
  [0, 1024), so its unsigned value is below 1024 — a row of the 1024-row span table.

  The precondition is a conjunction ending in "all ids are ≥ 0 and < 1024": an and-reduction over every index
  of the two signed comparisons' conjunction. The reduction being 1 gives both comparisons at each index; a
  word that is ≥ 0 signed has its sign bit clear, and then < 1024 signed is < 1024 unsigned.
-/
import proofs.«403779_j9388798509772_3_alg».proof.Pre_finite_inputs
import Idealize.ShloMosaic.Lib.ReduceAll
import Idealize.ShloMosaic.Lib.StableHlo.Predicate
import Idealize.ShloMosaic.Lib.ValueIdx

noncomputable section

namespace Cert.RelFfn

open Idealize.ShloMosaic

/-- A 32-bit word that is ≥ 0 and < 1024 as a signed integer has unsigned value below 1024. -/
theorem word_lt_of_signed (w : BitVec 32) (h0 : IntOp.cmpi .sge w 0#32 = 1#1) (h1 : IntOp.cmpi .slt w 1024#32 = 1#1) :
    w.toNat < 1024 := by
  simp only [IntOp.cmpi] at h0 h1
  have e0 : (0#32 : BitVec 32).toInt = 0 := by decide
  have e1 : (1024#32 : BitVec 32).toInt = 1024 := by decide
  have b0 : (0#32 : BitVec 32).sle w = true := (StableHlo.Predicate.ofBool_eq_one_iff _).1 h0
  have b1 : w.slt 1024#32 = true := (StableHlo.Predicate.ofBool_eq_one_iff _).1 h1
  simp only [BitVec.sle, BitVec.slt, decide_eq_true_eq, e0, e1] at b0 b1
  have hw := w.isLt
  rw [BitVec.toInt_eq_toNat_cond] at b0 b1
  split at b0 <;> omega

instance : Subsingleton Cert.Pre_finite_inputs.S_.Idx := ⟨fun a b => funext fun d => d.elim0⟩

variable [Cert.Pre_finite_inputs.Facts]

/-- Under the precondition every id word is below 1024. -/
theorem ids_lt {F : FTy → Type} [FloatOps F]
    (a0 : FVec F Cert.Pre_finite_inputs.S4x1024x256 .f32) (ids : IVec Cert.Pre_finite_inputs.S4x65536x2 32)
    (a2 : FVec F Cert.Pre_finite_inputs.S512x768 .f32) (a3 : FVec F Cert.Pre_finite_inputs.S768 .f32)
    (a4 : FVec F Cert.Pre_finite_inputs.S768x256 .f32) (a5 : FVec F Cert.Pre_finite_inputs.S256 .f32)
    (h : Cert.Pre_finite_inputs.fn (F := F) a0 ids a2 a3 a4 a5 = fun _ => 1#1)
    (j : Cert.Pre_finite_inputs.S4x65536x2.Idx) : (ids j).toNat < 1024 := by
  have h := congrFun h ValueIdx.ix0
  dsimp only [Cert.Pre_finite_inputs.fn, Cert.Pre_finite_inputs.fn_part1] at h
  obtain ⟨_, h29⟩ := IntOp.andi_eq_one.1 h
  have hj := Host.reduce_andi_all _ _ _ _ _ h29 j
  obtain ⟨hge, hlt⟩ := IntOp.andi_eq_one.1 hj
  exact word_lt_of_signed _ hge hlt

end Cert.RelFfn

end
-- ==== Proof.Claims.lean ====
/-
  The claims of the certificate: the relation feed-forward kernel and its reference compute one function.

  A relation (b, r) names two rows of batch b's span table by its two id words; its 512 features are the head row
  followed by the tail row, and out = relu(features · W1 + b1) · W2 + b2. Both programs end with the specification's
  `result` of the argument arrays when every id lies in [0, 1024), which the precondition says:
  * the kernel gathers a row by a product with a one-hot matrix: a one-hot row of a sum selects the one term where it
    is 1; and it multiplies the two halves of W1 separately and adds;
  * the reference gathers by index and concatenates the two rows: the 512-term sum splits into its two 256-term halves;
  * in range, the kernel's clamp of the ids and the reference's wrap-around and clamp all leave an id where it is, and
    the reference's out-of-range fill is never chosen.
  So the two result arrays are equal element by element as extended reals, from memories that agree on the arguments;
  each program leaves its arguments unchanged. The idealized kernel is the kernel's own text read at the ideal instance:
  the ideal pass rewrote no operation, so there is nothing to preserve.
-/
import proofs.«403779_j9388798509772_3_alg».proof.Defs
import proofs.«403779_j9388798509772_3_alg».proof.Proof.KernelFrame
import proofs.«403779_j9388798509772_3_alg».proof.Proof.KernelIdealFrame
import proofs.«403779_j9388798509772_3_alg».proof.Proof.ToArray
import proofs.«403779_j9388798509772_3_alg».proof.Proof.RefRun
import proofs.«403779_j9388798509772_3_alg».proof.Proof.RefSide
import proofs.«403779_j9388798509772_3_alg».proof.Proof.Pre
import proofs.«403779_j9388798509772_3_alg».proof.Proof.Gen.Kernel
import proofs.«403779_j9388798509772_3_alg».proof.Proof.Gen.KernelIdeal
import proofs.«403779_j9388798509772_3_alg».proof.Proof.Gen.ReferenceIdeal
import proofs.«403779_j9388798509772_3_alg».proof.Proof.Gen.Pre_finite_inputs

noncomputable section

namespace Cert.Proof.Claims

open Idealize.ShloMosaic Idealize.SL.Sem Idealize.ShloMosaic.TcCoe

/-- The kernel runs and leaves its arguments unchanged. -/
theorem frame_kernel : Cert.frame_Kernel := fun m ρ _ => Cert.Kernel.GenP.frame m ρ

/-- The idealized kernel runs and leaves its arguments unchanged. -/
theorem frame_kernelIdeal : Cert.frame_KernelIdeal := fun m ρ _ => Cert.KernelIdeal.GenP.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The ideal pass rewrote no operation. -/
theorem preserves : Cert.preserves_Kernel_KernelIdeal := trivial

/-- At the ideal instance both programs end with the specification's result of the arguments: the kernel by its blocks,
    the reference by its last stage read index by index; the arguments agree, so the results are equal. -/
theorem algebraic : Cert.algebraic_KernelIdeal_ReferenceIdeal := by
  intro m ρ m' ρ' hpre hagree
  have hids : ∀ (c : Dev Cert.KernelIdeal.nD) (j : Cert.KernelIdeal.S4x65536x2.Idx),
      ((m ((c : Thread Cert.KernelIdeal.nD Cert.KernelIdeal.τ).loc Cert.KernelIdeal.main_arg1) :
        Cert.KernelIdeal.S4x65536x2.Idx → BitVec 32) j).toNat < 1024 :=
    fun c j => Cert.RelFfn.ids_lt (F := Ideal) _ _ _ _ _ _ (hpre c) j
  refine ⟨fun c => Cert.KernelIdeal.ToArray.G m c, Cert.KernelIdeal.ToArray.run m ρ hids, ?_⟩
  refine (θ_run Cert.ReferenceIdeal.defs _ _).mono (fun _ h c => ⟨(h c).1.trans ?_, (h c).2⟩)
    (Cert.ReferenceIdeal.RefRun.run (F := Ideal) m' ρ')
  have hids' : ∀ j : Cert.ReferenceIdeal.S4x65536x2.Idx,
      ((m' ((c.tc : Thread Cert.ReferenceIdeal.nD Cert.ReferenceIdeal.τ).loc Cert.ReferenceIdeal.main_arg1) :
        Cert.ReferenceIdeal.S4x65536x2.Idx → BitVec 32) j).toNat < 1024 := fun j => by
    rw [(hagree c).2.1]
    exact hids c j
  rw [Cert.ReferenceIdeal.RefSide.ref_is_result _ _ _ _ _ _ hids', (hagree c).1, (hagree c).2.1, (hagree c).2.2.1,
    (hagree c).2.2.2.1, (hagree c).2.2.2.2.1, (hagree c).2.2.2.2.2]

end Cert.Proof.Claims

end
-- ==== Proof.lean ====
/-
  The proof of `Cert.Claim`: the relation feed-forward kernel, its idealization and its reference.

  Each program runs and leaves its six argument arrays unchanged; the idealization is the kernel's own text at the ideal
  instance; and at the ideal instance the kernel and the reference end with the same result array, the specification's
  `result`: for every relation (b, r), relu([head row, tail row] · W1 + b1) · W2 + b2, the two rows of batch b's span
  table named by the relation's two id words. The laws that join the two arrangements: a one-hot row of a sum selects
  the one term where it is 1 (the kernel's gather is a product with a one-hot matrix); a 512-term sum splits into its
  two 256-term halves (the reference concatenates the rows, the kernel multiplies the halves of W1 separately); and for
  an id in [0, 1024), which the precondition gives, the clamp and the wrap-around both do nothing. The claims are
  proved in Proof/Claims.lean; here they stand behind the witnesses of the programs' stated facts.
-/
import proofs.«403779_j9388798509772_3_alg».proof.Defs
import proofs.«403779_j9388798509772_3_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_referenceIdeal, Claims.preserves, Claims.algebraic⟩

end Cert.Proof

end
